-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S32768 : Shape := ⟨1, ![32768]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x4096 .f32) (main_arg1 : IVec S32768 32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_c_0 : IVec S_ 32 := constantI S_ 32 0#32
  let main_v4 : IVec S32768 32 := broadcastInDim S32768 ![] bcast_S_S32768 main_c_0
  let main_v5 : IVec S32768 1 := cmpi .sge main_arg1 main_v4
  let main_c_1 : IVec S_ 32 := constantI S_ 32 4096#32
  let main_v6 : IVec S32768 32 := broadcastInDim S32768 ![] bcast_S_S32768 main_c_1
  let main_v7 : IVec S32768 1 := cmpi .slt main_arg1 main_v6
  let main_v8 : IVec S32768 1 := andi main_v5 main_v7
  let main_c_2 : IVec S_ 1 := constantI S_ 1 1#1
  let main_v9 : IVec S_ 1 := (fun x v => Host.reduce IntOp.andi x v reducesTo_S32768_S_d0 h_S_) main_v8 main_c_2
  let main_v10 : IVec S_ 1 := andi main_v3 main_v9
  main_v10
-- ==== Kernel.lean ====
abbrev S32768x4096 : Shape := ⟨2, ![32768, 4096]⟩
abbrev S32768 : Shape := ⟨1, ![32768]⟩
abbrev S64x1x512 : Shape := ⟨3, ![64, 1, 512]⟩
abbrev S16x128 : Shape := ⟨2, ![16, 128]⟩
abbrev S512x4096 : Shape := ⟨2, ![512, 4096]⟩
abbrev S1x1x512 : Shape := ⟨3, ![1, 1, 512]⟩
abbrev S8x128 : Shape := ⟨2, ![8, 128]⟩
abbrev S1x512 : Shape := ⟨2, ![1, 512]⟩
abbrev S512x1 : Shape := ⟨2, ![512, 1]⟩
abbrev S512 : Shape := ⟨1, ![512]⟩
abbrev S1 : Shape := ⟨1, ![1]⟩
abbrev S1x1 : Shape := ⟨2, ![1, 1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S32768, .i32⟩
  | .hbm, ⟨2, _⟩ => ⟨S64x1x512, .i32⟩
  | .hbm, ⟨3, _⟩ => ⟨S16x128, .f32⟩
  | .hbm, ⟨4, _⟩ => ⟨S_, .f32⟩
  | .hbm, ⟨5, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S1x1x512, .i32⟩
  | .local _ .vmem, ⟨3, _⟩ => ⟨S1x1x512, .i32⟩
  | .local _ .vmem, ⟨4, _⟩ => ⟨S8x128, .f32⟩
  | .local _ .vmem, ⟨5, _⟩ => ⟨S8x128, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32768_S64x1x512 : S32768.ShapeCasts S64x1x512
  inb_S8x128_S8x128_0_0 : ∀ a, (![0, 0] : Fin 2 → Nat) a + S8x128.size a ≤ S8x128.size a
  h_S8x128 : 0 < S8x128.numel
  inb_S512x4096_S512x4096_0_0 : ∀ a, (![0, 0] : Fin 2 → Nat) a + S512x4096.size a ≤ S512x4096.size a
  h_S512x4096 : 0 < S512x4096.numel
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  shapeCasts_S1x1x512_S1x512 : S1x1x512.ShapeCasts S1x512
  transposes_S1x512_p1_0_S512x1 : S1x512.Transposes [1, 0] S512x1
  iota_S512x4096_d1_w32 : S512x4096.Iotas .tc 32 [1]
  broadcasts_S512x1_S512x4096 : S512x1.Broadcasts S512x4096
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S64x1x512.size a
  hwx0_1 : ∀ i : grid0.Coords, EltTy.bits .i32 = 32 ∨ (Rect.block (s := S64x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S32768 : Shape := ⟨1, ![32768]⟩
abbrev S_ : Shape := ⟨0, ![]⟩
abbrev S32768x1 : Shape := ⟨2, ![32768, 1]⟩
abbrev S32768x1x1 : Shape := ⟨3, ![32768, 1, 1]⟩
abbrev S1 : Shape := ⟨1, ![1]⟩
abbrev S1x1x1 : Shape := ⟨3, ![1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S32768, .i32⟩
  | .hbm, ⟨2, _⟩ => ⟨S_, .f32⟩
  | .hbm, ⟨3, _⟩ => ⟨S32768, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S32768x1, .f32⟩
  | .hbm, ⟨8, _⟩ => ⟨S32768x4096, .f32⟩
  | .hbm, ⟨9, _⟩ => ⟨S32768x4096, .f32⟩
  | .hbm, ⟨10, _⟩ => ⟨S32768x4096, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x1, .f32⟩
  | .hbm, ⟨15, _⟩ => ⟨S32768x4096, .f32⟩
  | .hbm, ⟨16, _⟩ => ⟨S32768x4096, .f32⟩
  | .hbm, ⟨17, _⟩ => ⟨S32768x1, .i32⟩
  | .hbm, ⟨18, _⟩ => ⟨S_, .i32⟩
  | .hbm, ⟨19, _⟩ => ⟨S32768x1, .i32⟩
  | .hbm, ⟨20, _⟩ => ⟨S32768x1, .i1⟩
  | .hbm, ⟨21, _⟩ => ⟨S_, .i32⟩
  | .hbm, ⟨22, _⟩ => ⟨S32768x1, .i32⟩
  | .hbm, ⟨23, _⟩ => ⟨S32768x1, .i32⟩
  | .hbm, ⟨24, _⟩ => ⟨S32768x1, .i32⟩
  | .hbm, ⟨25, _⟩ => ⟨S32768x1x1, .i32⟩
  | .hbm, ⟨26, _⟩ => ⟨S1, .i32⟩
  | .hbm, ⟨27, _⟩ => ⟨S_, .i32⟩
  | .hbm, ⟨28, _⟩ => ⟨S32768x1x1, .i32⟩
  | .hbm, ⟨29, _⟩ => ⟨S32768x1x1, .i1⟩
  | .hbm, ⟨30, _⟩ => ⟨S1x1x1, .i32⟩
  | .hbm, ⟨31, _⟩ => ⟨S32768x1x1, .i32⟩
  | .hbm, ⟨32, _⟩ => ⟨S32768x1x1, .i1⟩
  | .hbm, ⟨33, _⟩ => ⟨S32768x1x1, .i1⟩
  | .hbm, ⟨34, _⟩ => ⟨S_, .i1⟩
  | .hbm, ⟨35, _⟩ => ⟨S32768x1, .i1⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768, .f32⟩
  | .hbm, ⟨41, _⟩ => ⟨S32768, .f32⟩
  | .hbm, ⟨42, _⟩ => ⟨S_, .f32⟩
  | .hbm, ⟨43, _⟩ => ⟨S32768, .f32⟩
  | .hbm, ⟨44, _⟩ => ⟨S32768, .i1⟩
  | .hbm, ⟨45, _⟩ => ⟨S_, .f32⟩
  | .hbm, ⟨46, _⟩ => ⟨S32768, .f32⟩
  | .hbm, ⟨47, _⟩ => ⟨S32768, .i1⟩
  | .hbm, ⟨48, _⟩ => ⟨S_, .f32⟩
  | .hbm, ⟨49, _⟩ => ⟨S_, .f32⟩
  | .hbm, ⟨50, _⟩ => ⟨S32768, .f32⟩
  | .hbm, ⟨51, _⟩ => ⟨S32768, .f32⟩
  | .hbm, ⟨52, _⟩ => ⟨S32768, .f32⟩
  | .hbm, ⟨53, _⟩ => ⟨S_, .f32⟩
  | .hbm, ⟨54, _⟩ => ⟨S32768, .f32⟩
  | .hbm, ⟨55, _⟩ => ⟨S32768, .f32⟩
  | .hbm, ⟨56, _⟩ => ⟨S_, .f32⟩
  | .hbm, ⟨57, _⟩ => ⟨S32768, .f32⟩
  | .hbm, ⟨58, _⟩ => ⟨S32768, .f32⟩
  | .hbm, ⟨59, _⟩ => ⟨S32768, .f32⟩
  | .hbm, ⟨60, _⟩ => ⟨S32768, .f32⟩
  | .hbm, ⟨61, _⟩ => ⟨S32768, .f32⟩
  | .hbm, ⟨62, _⟩ => ⟨S32768, .f32⟩
  | .hbm, ⟨63, _⟩ => ⟨S_, .f32⟩
  | .hbm, ⟨64, _⟩ => ⟨S_, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩
abbrev main_v8 : Ref sig .tc := ⟨.hbm, 47, rfl⟩
abbrev main_cst_1 : Ref sig .tc := ⟨.hbm, 48, rfl⟩
abbrev main_cst_2 : Ref sig .tc := ⟨.hbm, 49, rfl⟩
abbrev main_call2_v0 : Ref sig .tc := ⟨.hbm, 50, rfl⟩
abbrev main_call2_v1 : Ref sig .tc := ⟨.hbm, 51, rfl⟩
abbrev main_v9 : Ref sig .tc := ⟨.hbm, 52, rfl⟩
abbrev main_cst_3 : Ref sig .tc := ⟨.hbm, 53, rfl⟩
abbrev main_call3_v0 : Ref sig .tc := ⟨.hbm, 54, rfl⟩
abbrev main_v10 : Ref sig .tc := ⟨.hbm, 55, rfl⟩
abbrev main_cst_4 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_5 : Ref sig .tc := ⟨.hbm, 63, rfl⟩
abbrev main_v17 : Ref sig .tc := ⟨.hbm, 64, rfl⟩

abbrev nD : Nat := 1
abbrev τ : Topo := Topo.v7x

variable {F : FTy → Type} [FloatOps F]

class Facts₀ : Prop where
  reducesTo_S32768x4096_S32768_d1 : S32768x4096.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x4096_0_1 : S32768x1.BroadcastsInDim S32768x4096 (![0, 1] : Fin 2 → Fin S32768x4096.rank)
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  shapeCasts_S32768x1_S32768 : S32768x1.ShapeCasts S32768
  reducesTo_S32768_S_d0 : S32768.ReducesTo [0] S_
  gather_S32768x4096_S32768x1x1_S32768x1_n_1_0_0_1_2_11_wf : GatherDims.WF S32768x4096 S32768x1x1 S32768x1 [] [1] [0] [1] [0] 2 ![1, 1]

variable [Facts₀]

def gather_S32768x4096_S32768x1x1_S32768x1_n_1_0_0_1_2_11 : GatherDims S32768x4096 S32768x1x1 S32768x1 where
  offsetDims := []
  collapsedSliceDims := [1]
  operandBatchingDims := [0]
  startIndicesBatchingDims := [0]
  startIndexMap := [1]
  indexVectorDim := 2
  sliceSizes := ![1, 1]
  wf := gather_S32768x4096_S32768x1x1_S32768x1_n_1_0_0_1_2_11_wf

class Facts : Prop extends Facts₀ where

variable [Facts]
-- ==== Proof.PreDecode.lean ====
import proofs.«402988_j6030134084185_2_alg».proof.Pre_finite_inputs
import proofs.«402988_j6030134084185_2_alg».proof.Proof.Gen.Pre_finite_inputs
import Idealize.ShloMosaic.PureOps.Ideal
import Idealize.ShloMosaic.Lib.ReduceAll
import Idealize.ShloMosaic.Lib.ValueIdx

/-
  The precondition read back. Its predicate is the conjunction of two "for all" statements, each
  the fold of the operation "and" over an array of one-bit words starting from 1: over the logits, the word of
  |x| < +∞ at every entry; over the labels, the word of (0 ≤ t) and (t < 4096), signed, at every entry. A fold
  by "and" that ends in 1 met only 1s, so every entry's word is 1. An extended real whose absolute value
  max x (−x) lies below +∞ is neither +∞ nor −∞, hence a real; a 32-bit word whose signed value lies in
  [0, 4096) has its sign bit clear, so its unsigned value is the same number and lies below 4096.
-/

noncomputable section

namespace Cert.Focal

open Idealize.ShloMosaic Idealize.ShloMosaic.ValueIdx

/-- The shape with no axes has one index. -/
instance preIdxSubsingleton : Subsingleton Cert.Pre_finite_inputs.S_.Idx := ⟨fun a b => funext fun d => d.elim0⟩

/-- The word with exponent all ones, fraction zero and sign clear denotes +∞. -/
theorem ofBits_posInf : Ideal.ofBits .f32 0x7F800000#32 = (⊤ : EReal) := by
  simp [Ideal.ofBits, Ideal.ieee]

/-- An extended real whose absolute value max x (−x) compares below +∞ is a real: at +∞ the maximum is +∞, at −∞
    the negation is +∞, and in both cases the strict comparison fails. -/
theorem real_of_abs_lt_posInf (x : EReal)
    (h : Ideal.cmp .olt (max x (-x)) (Ideal.ofBits .f32 0x7F800000#32) = 1#1) : ∃ r : ℝ, x = (r : EReal) := by
  rw [ofBits_posInf] at h
  have h' : max x (-x) < ⊤ := by
    by_contra hc
    unfold Ideal.cmp at h
    dsimp only at h
    rw [decide_eq_false hc] at h
    exact absurd h (by decide)
  induction x using EReal.rec with
  | bot => simp at h'
  | coe r => exact ⟨r, rfl⟩
  | top => simp at h'

/-- A 32-bit word whose signed value is at least 0 and below 4096 has unsigned value below 4096: a nonnegative signed
    value means the sign bit is clear, and then the two values agree. -/
theorem toNat_lt_of_signed_range (w : BitVec 32) (h1 : IntOp.cmpi .sge w 0#32 = 1#1)
    (h2 : IntOp.cmpi .slt w 4096#32 = 1#1) : w.toNat < 4096 := by
  rw [IntOp.cmpi_sge] at h1
  rw [IntOp.cmpi_slt] at h2
  have e0 : (0#32 : BitVec 32).toInt = 0 := by decide
  have e1 : (4096#32 : BitVec 32).toInt = 4096 := by decide
  rw [e0] at h1
  rw [e1] at h2
  rw [BitVec.toInt_eq_toNat_cond] at h1 h2
  have := w.isLt
  split at h1 <;> omega

/-- The precondition's word being 1 says: every logit is a real, and every label word is below 4096. -/
theorem pre_decode (X : FVec Ideal Cert.Pre_finite_inputs.S32768x4096 .f32) (T : IVec Cert.Pre_finite_inputs.S32768 32)
    (h : Cert.Pre_finite_inputs.fn (F := Ideal) X T = fun _ => 1#1) :
    (∀ i, ∃ r : ℝ, X i = (r : EReal)) ∧ (∀ n, (T n).toNat < 4096) := by
  have h0 := congrFun h ValueIdx.ix0
  dsimp only [Cert.Pre_finite_inputs.fn] at h0
  obtain ⟨hx, ht⟩ := IntOp.andi_eq_one.1 h0
  refine ⟨fun i => ?_, fun n => ?_⟩
  · have e := Host.reduce_andi_all _ _ _ _ _ hx i
    exact real_of_abs_lt_posInf (X i) e
  · have e := Host.reduce_andi_all _ _ _ _ _ ht n
    obtain ⟨e1, e2⟩ := IntOp.andi_eq_one.1 e
    exact toNat_lt_of_signed_range (T n) e1 e2

end Cert.Focal

end
-- ==== Proof.Spec.lean ====
/-
  The focal loss with a probability-dependent exponent, as one function of the logits and the labels.

  A row of logits is `x : Fin 4096 → EReal`; its label is a 32-bit word `w` that names a class `k = tgt w`.
  With `M` the row's largest entry, the log-probability of class `k` under the row's softmax is
    `logp x k = (x k − M) − log (∑ c, exp (x c − M))`,
  its probability `pt = exp (logp x k)`, and the row's loss
    `focal lp = −(g · lp)`, `g = 1` if `pt ≥ 1/2`, `(1 − pt)⁵` if `pt < 0.2`, `(1 − pt)³` otherwise.
  The total is the sum of the rows' losses over the 32768 rows.

  Beside that function stand the two arrangements of it that are compared with it:
  `kerLoss` picks the class's shifted logit by a sum over the row of the entries whose column equals the
  label (every other term a zero), and writes the powers as products; `refLoss` takes the largest entry once
  more against `−∞`, adds the sum of exponentials to a zero, and raises `1 − pt` to a real exponent
  `0`, `5` or `3`. The thresholds `1/2` and `0.2` stay the words they are written as: the same word is
  never evaluated.
-/
import Idealize.ShloMosaic.PureOps
import Idealize.ShloMosaic.PureOps.Ideal
import Idealize.ShloMosaic.Lib.ValueIdx

noncomputable section

namespace Cert.Focal

open Idealize.ShloMosaic Idealize.ShloMosaic.ValueIdx

/-- The words of the float constants both programs carry. -/
abbrev wNegInf : BitVec 32 := 0xFF800000#32
abbrev wZero : BitVec 32 := 0x00000000#32
abbrev wOne : BitVec 32 := 0x3F800000#32
abbrev wHalf : BitVec 32 := 0x3F000000#32
abbrev wFifth : BitVec 32 := 0x3E4CCCCD#32
abbrev wThree : BitVec 32 := 0x40400000#32
abbrev wFive : BitVec 32 := 0x40A00000#32
/-- `2⁻¹⁰`: one cell's share of a block's sum, spread over the 8 × 128 cells of an output tile. -/
abbrev wCell : BitVec 32 := 0x3A800000#32

/-- The largest entry of a row. -/
def rowMax (x : Fin 4096 → EReal) : EReal := (Finset.univ : Finset (Fin 4096)).fold max ⊥ x

/-- The logarithm of the sum of the row's shifted exponentials. -/
def lse (x : Fin 4096 → EReal) : EReal := Ideal.log (∑ c : Fin 4096, Ideal.exp (x c - rowMax x))

/-- The log-probability of class `k` under the row's softmax. -/
def logp (x : Fin 4096 → EReal) (k : Fin 4096) : EReal := (x k - rowMax x) - lse x

/-- The weight `(1 − pt)^γ` with `γ = 0, 5, 3` by `pt`'s range, the powers as products. -/
def weight (pt : EReal) : EReal :=
  Scalar.select (Ideal.cmp .oge pt (Ideal.ofBits .f32 wHalf)) 1
    (Scalar.select (Ideal.cmp .olt pt (Ideal.ofBits .f32 wFifth))
      ((((1 - pt) * (1 - pt)) * (1 - pt)) * ((1 - pt) * (1 - pt)))
      (((1 - pt) * (1 - pt)) * (1 - pt)))

/-- A row's loss from its class's log-probability. -/
def focal (lp : EReal) : EReal := -(weight (Ideal.exp lp) * lp)

/-- The class a label word names (a word below 4096 names itself). -/
def tgt (w : BitVec 32) : Fin 4096 := ⟨w.toNat % 4096, Nat.mod_lt _ (by norm_num)⟩

/-- A row's loss. -/
def lossRow (x : Fin 4096 → EReal) (w : BitVec 32) : EReal := focal (logp x (tgt w))

/-- Row `n` of the logits. -/
abbrev rowOf (X : (⟨2, ![32768, 4096]⟩ : Shape).Idx → EReal) (n : Fin 32768) : Fin 4096 → EReal := fun c => X (ix2 n c)

/-- The total loss: the sum over the rows. -/
def total (X : (⟨2, ![32768, 4096]⟩ : Shape).Idx → EReal) (T : (⟨1, ![32768]⟩ : Shape).Idx → BitVec 32) : EReal :=
  ∑ n : Fin 32768, lossRow (rowOf X n) (T (ix1 n))

/-! ## The two arrangements -/

/-- The row's loss as the tiled program arranges it: the largest entry from `−∞`; the class's shifted logit as
    the sum over the row of the shifted entries at the columns equal to the label word, zeros elsewhere; the weight by
    products; the sign by a subtraction from zero. -/
def kerLoss (x : Fin 4096 → EReal) (w : BitVec 32) : EReal :=
  let M := (Finset.univ : Finset (Fin 4096)).fold max (Ideal.ofBits .f32 wNegInf) x
  let ts := ∑ c : Fin 4096, Scalar.select (IntOp.cmpi .eq (BitVec.ofNat 32 c.val) w) (x c - M) (Ideal.ofBits .f32 wZero)
  let lp := ts - Ideal.log (∑ c : Fin 4096, Ideal.exp (x c - M))
  let pt := Ideal.exp lp
  let d := Ideal.ofBits .f32 wOne - pt
  Ideal.ofBits .f32 wZero -
    Scalar.select (Ideal.cmp .oge pt (Ideal.ofBits .f32 wHalf)) (Ideal.ofBits .f32 wOne)
      (Scalar.select (Ideal.cmp .olt pt (Ideal.ofBits .f32 wFifth)) (((d * d) * d) * (d * d)) ((d * d) * d)) * lp

/-- The row's loss as the plain program arranges it, for class `k`: the largest entry taken once more against `−∞`;
    the sum of exponentials added to a zero; `1 − pt` raised to the real exponent `0`, `5` or `3`. -/
def refLoss (x : Fin 4096 → EReal) (k : Fin 4096) : EReal :=
  let M := max (Ideal.ofBits .f32 wNegInf) ((Finset.univ : Finset (Fin 4096)).fold max (Ideal.ofBits .f32 wNegInf) x)
  let lp := (x k - M) - Ideal.log (Ideal.ofBits .f32 wZero + ∑ c : Fin 4096, Ideal.exp (x c - M))
  let pt := Ideal.exp lp
  (-(Ideal.pow (Ideal.ofBits .f32 wOne - pt)
      (Scalar.select (Ideal.cmp .oge pt (Ideal.ofBits .f32 wHalf)) (Ideal.ofBits .f32 wZero)
        (Scalar.select (Ideal.cmp .olt pt (Ideal.ofBits .f32 wFifth)) (Ideal.ofBits .f32 wFive) (Ideal.ofBits .f32 wThree))))) * lp

end Cert.Focal

end
-- ==== Proof.Payload.lean ====
/-
  The tiled program's three stored values, read at one index at the extended reals.

  A block of 512 rows of logits `xb` with the block's 512 label words `tb` gives a 512 × 1 column whose row `r`
  is `kerLoss` of row `r` of the block and label `r`; the output tile gains, at every one of its 8 × 128 cells,
  the column's sum times the word `wCell`; the tile's first value is the zero word everywhere.
-/
import proofs.«402988_j6030134084185_2_alg».proof.Proof.Gen.KernelIdeal.Skeleton
import proofs.«402988_j6030134084185_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Focal

open Idealize.ShloMosaic Idealize.ShloMosaic.ValueIdx Cert.KernelIdeal Cert.KernelIdeal.Gen

/-! ## The layout operations at literal shapes -/

/-- A 512-vector viewed as a 512 × 1 column reads, at row `r`, the vector at `r`: both positions are `r`. -/
theorem pay_keepCol_apply {α : Type} (v : S512.Idx → α) (r : Fin 512) (u : Fin 1) :
    shapeCast S512x1 v shapeCasts_S512_S512x1 (ix2 r u) = v (ix1 r) := by
  refine shapeCast_apply v _ _ _ ?_
  rw [Shape.rowMajor_val_one, Shape.rowMajor_val_two]
  show r.val = r.val * 1 + u.val
  omega

/-- A 512 × 1 column spread over 4096 columns reads, at `(r, c)`, the column at row `r`. -/
theorem pay_colBroadcast_apply {α : Type} (v : S512x1.Idx → α) (r : Fin 512) (c : Fin 4096) :
    broadcastTo S512x4096 v broadcasts_S512x1_S512x4096 (ix2 r c) = v (ix2 r (0 : Fin 1)) := by
  refine broadcastTo_apply v _ _ _ fun a => ?_
  match a with
  | ⟨0, _⟩ => rfl
  | ⟨1, _⟩ => rfl

/-- The column index along the row: a one-axis iota on axis 1 reads the column as a 32-bit word. -/
theorem pay_colIota_apply (r : Fin 512) (c : Fin 4096) :
    iota .tc S512x4096 32 [1] iota_S512x4096_d1_w32 (ix2 r c) = BitVec.ofNat 32 c.val :=
  iota_single_apply .tc S512x4096 32 1 iota_S512x4096_d1_w32 (ix2 r c)

/-- The labels, a 1 × 1 × 512 block, viewed 1 × 512 and turned to a 512 × 1 column: row `r` is label `r`. -/
theorem pay_labelCol_apply {α : Type} (tb : S1x1x512.Idx → α) (r : Fin 512) (u : Fin 1) :
    transpose S512x1 [1, 0] (shapeCast S1x512 (shapeCast S1x1x512 tb shapeCasts_S1x1x512_S1x1x512) shapeCasts_S1x1x512_S1x512)
      transposes_S1x512_p1_0_S512x1 (ix2 r u) = tb (ix3 (0 : Fin 1) (0 : Fin 1) r) := by
  rw [shapeCast_self]
  refine (transpose_apply _ _ _ _ (ix2 (0 : Fin 1) r) fun b => ?_).trans ?_
  · match b with
    | ⟨0, _⟩ => rfl
    | ⟨1, _⟩ => show (0 : Fin 1).val = u.val; omega
  · refine shapeCast_apply tb _ _ _ ?_
    rw [Shape.rowMajor_val_two, Shape.rowMajor_val_three]
    show ((0 : Fin 1).val * 1 + (0 : Fin 1).val) * 512 + r.val = (0 : Fin 1).val * 512 + r.val
    simp

/-! ## The reductions at literal shapes -/

/-- The index a reduction along the row inserts: row `r`, column `c`. -/
theorem pay_lift_row (r : Fin 512) (c : Fin 4096) :
    reduces_S512x4096_S512.lift (ix1 r) c = ix2 r c := by
  funext a
  match a with
  | ⟨0, _⟩ => exact Fin.ext rfl
  | ⟨1, _⟩ => exact Fin.ext rfl

/-- The largest entry along a row, from the word of `−∞`. -/
theorem pay_rowMaxRed_apply (x : FVec Ideal S512x4096 .f32) (r : Fin 512) :
    multiReduction (F := Ideal) .maximumf [1] S512 x 0xFF800000#32 reduces_S512x4096_S512 (.inl rfl) rfl (ix1 r)
      = (Finset.univ : Finset (Fin 4096)).fold max (Ideal.ofBits .f32 wNegInf) (fun c => x (ix2 r c)) := by
  refine (Ideal.multiReduction_maximumf_single x _ reduces_S512x4096_S512 (.inl rfl) rfl (ix1 r)).trans ?_
  have e : (x ∘ reduces_S512x4096_S512.lift (ix1 r)) = fun c : Fin 4096 => x (ix2 r c) :=
    funext fun c => congrArg x (pay_lift_row r c)
  rw [e]
  rfl

/-- The sum along a row. -/
theorem pay_rowSumRed_apply (x : FVec Ideal S512x4096 .f32) (r : Fin 512) :
    multiReduction (F := Ideal) .add [1] S512 x 0x00000000#32 reduces_S512x4096_S512 (.inl rfl) rfl (ix1 r)
      = ∑ c : Fin 4096, x (ix2 r c) := by
  refine (Ideal.multiReduction_add_single x _ reduces_S512x4096_S512 (.inl rfl) rfl (ix1 r)).trans ?_
  exact Finset.sum_congr rfl fun c _ => congrArg x (pay_lift_row r c)

/-- The index a reduction down the one column inserts: row `k`, column `0`. -/
theorem pay_lift_col (j : S1.Idx) (k : Fin 512) :
    reduces_S512x1_S1.lift j k = ix2 k (0 : Fin 1) := by
  funext a
  match a with
  | ⟨0, _⟩ => exact Fin.ext rfl
  | ⟨1, h⟩ =>
    have h1 : (reduces_S512x1_S1.lift j k ⟨1, h⟩).val < 1 := (reduces_S512x1_S1.lift j k ⟨1, h⟩).isLt
    exact Fin.ext (by show (reduces_S512x1_S1.lift j k ⟨1, h⟩).val = 0; omega)

/-- The sum down a 512 × 1 column. -/
theorem pay_colSumRed_apply (v : FVec Ideal S512x1 .f32) (j : S1.Idx) :
    multiReduction (F := Ideal) .add [0] S1 v 0x00000000#32 reduces_S512x1_S1 (.inl rfl) rfl j
      = ∑ k : Fin 512, v (ix2 k (0 : Fin 1)) := by
  refine (Ideal.multiReduction_add_single v _ reduces_S512x1_S1 (.inl rfl) rfl j).trans ?_
  exact Finset.sum_congr rfl fun k _ => congrArg v (pay_lift_col j k)

/-! ## The tile's two values -/

/-- A 1-vector viewed 1 × 1 reads its one entry. -/
theorem pay_keepOne_apply {α : Type} (w : S1.Idx → α) (i : S1x1.Idx) :
    shapeCast S1x1 w shapeCasts_S1_S1x1 i = w (ix1 (0 : Fin 1)) := by
  refine shapeCast_apply w _ _ _ ?_
  rw [Shape.rowMajor_val_one, Shape.rowMajor_val_two]
  have h0 : (i 0).val < 1 := (i 0).isLt
  have h1 : (i 1).val < 1 := (i 1).isLt
  show (0 : Fin 1).val = (i 0).val * 1 + (i 1).val
  simp; omega

/-- A 1 × 1 value spread over the 8 × 128 tile reads its one entry everywhere. -/
theorem pay_tileBroadcast_apply {α : Type} (w : S1x1.Idx → α) (j : S8x128.Idx) :
    broadcastTo S8x128 w broadcasts_S1x1_S8x128 j = w (ix2 (0 : Fin 1) (0 : Fin 1)) := by
  refine broadcastTo_apply w _ _ _ fun a => ?_
  match a with
  | ⟨0, _⟩ => rfl
  | ⟨1, _⟩ => rfl

/-- The tile's new value: at every cell the old value plus the column's sum times the word `wCell`. -/
theorem pay1_apply (v : FVec Ideal S512x1 .f32) (acc : Vec Ideal S8x128 .f32) (j : S8x128.Idx) :
    k0_pay1 (F := Ideal) v acc j = acc j + (∑ r : Fin 512, v (ix2 r (0 : Fin 1))) * Ideal.ofBits .f32 wCell := by
  unfold k0_pay1
  simp only [addf_apply, mulf_apply, shapeCast_self, pay_tileBroadcast_apply, pay_keepOne_apply, broadcast_apply]
  rw [pay_colSumRed_apply]
  rfl

/-- The tile's first value: the zero word at every cell. -/
theorem pay2_apply (j : S8x128.Idx) : k0_pay2 (F := Ideal) j = Ideal.ofBits .f32 wZero := rfl

/-! ## The column of row losses -/

/-- The exponential of a vector at an index. -/
theorem pay_vexp_apply {s : Shape} {φ : FTy} (v : FVec Ideal s φ) (i : s.Idx) : exp v i = Ideal.exp (v i) := rfl
/-- The logarithm of a vector at an index. -/
theorem pay_vlog_apply {s : Shape} {φ : FTy} (v : FVec Ideal s φ) (i : s.Idx) : log v i = Ideal.log (v i) := rfl
/-- An integer comparison of vectors at an index. -/
theorem pay_vcmpi_apply {s : Shape} {w : Nat} (p : CmpIPredicate) (a b : IVec s w) (i : s.Idx) : cmpi p a b i = IntOp.cmpi p (a i) (b i) := rfl

/-- The sum along row `r` of a choice, entry by entry, between two vectors by "the column is the row's label": the sum
    over the columns `c` of the choice by "the word of `c` equals label `r`". -/
theorem pay_pick_apply (tb : Vec Ideal S1x1x512 .i32) (y z : FVec Ideal S512x4096 .f32) (r : Fin 512) :
    multiReduction (F := Ideal) .add [1] S512
      (select (cmpi .eq (iota .tc S512x4096 32 [1] iota_S512x4096_d1_w32)
        (broadcastTo S512x4096 (transpose S512x1 [1, 0] (shapeCast S1x512 (shapeCast S1x1x512 tb shapeCasts_S1x1x512_S1x1x512)
          shapeCasts_S1x1x512_S1x512) transposes_S1x512_p1_0_S512x1) broadcasts_S512x1_S512x4096)) y z)
      0x00000000#32 reduces_S512x4096_S512 (.inl rfl) rfl (ix1 r)
    = ∑ c : Fin 4096, Scalar.select (IntOp.cmpi .eq (BitVec.ofNat 32 c.val) (tb (ix3 (0 : Fin 1) (0 : Fin 1) r)))
        (y (ix2 r c)) (z (ix2 r c)) := by
  refine (pay_rowSumRed_apply _ r).trans (Finset.sum_congr rfl fun c _ => ?_)
  rw [select_apply, pay_vcmpi_apply, pay_colIota_apply, pay_colBroadcast_apply, pay_labelCol_apply]

/-- Row `r` of the column of losses is `kerLoss` of row `r` of the block and label `r`. -/
theorem pay3_apply (xb : Vec Ideal S512x4096 .f32) (tb : Vec Ideal S1x1x512 .i32) (r : Fin 512) (u : Fin 1) :
    k0_pay3 (F := Ideal) xb tb (ix2 r u) = kerLoss (fun c => xb (ix2 r c)) (tb (ix3 (0 : Fin 1) (0 : Fin 1) r)) := by
  unfold k0_pay3
  simp only [subf_apply, mulf_apply, select_apply, cmpf_apply, broadcast_apply, pay_vexp_apply, pay_vlog_apply, pay_keepCol_apply]
  rw [pay_pick_apply, pay_rowSumRed_apply]
  simp only [subf_apply, broadcast_apply, pay_vexp_apply, pay_keepCol_apply, pay_colBroadcast_apply]
  rw [pay_rowMaxRed_apply]
  simp only [Ideal.ofBits_def, Ideal.cmpf_def]
  rfl

end Cert.Focal

end
-- ==== Proof.KerMath.lean ====
/-
  Three facts of pure mathematics on the extended reals that the comparison of the tiled arrangement with the
  row-wise loss rests on.

  * `kerLoss_eq`: the tiled arrangement of a row's loss is the row's loss. The word `0xFF800000` denotes `−∞`, so
    the largest entry taken from it is the row's largest entry; the words `0` and `0x3F800000` denote `0` and `1`;
    a column `c < 4096` written as a 32-bit word equals the label word `w < 4096` exactly when `c` is the class the
    label names, so the sum over the row of the shifted entries at the columns equal to the label, zeros elsewhere,
    has one term that is not a zero, the class's shifted entry; and `0 − a = −a`.
  * `sum_cells`: the word `0x3A800000` denotes `2⁻¹⁰`, and `1024` copies of `y · 2⁻¹⁰` add up to `y`, for a real
    `y` by arithmetic and for `y = ±∞` because `±∞ · 2⁻¹⁰ = ±∞` and a sum of one or more copies of `±∞` is `±∞`.
  * `sum_blocks`: the rows `n < 32768` are the pairs `(t, r)`, `t < 64`, `r < 512`, by `n = 512 t + r`, so a sum over
    the rows is the sum over the blocks of the sums inside each block.
-/
import proofs.«402988_j6030134084185_2_alg».proof.Proof.Spec

noncomputable section

namespace Cert.Focal

open Idealize.ShloMosaic Idealize.ShloMosaic.ValueIdx

/-! ## The constant words -/

/-- The word `0xFF800000` (sign set, exponent all ones, fraction zero) denotes `−∞`. -/
private theorem ker_negInf : Ideal.ofBits .f32 wNegInf = ⊥ := by
  simp [Ideal.ofBits, Ideal.ieee, wNegInf]

/-- The zero word denotes `0`. -/
private theorem ker_zero : Ideal.ofBits .f32 wZero = 0 := by
  simp [Ideal.ofBits, Ideal.ieee, wZero]

/-- The word `0x3F800000` (exponent field `127`, fraction zero) denotes `2²³ · 2^(127 − 127 − 23) = 1`. -/
private theorem ker_one : Ideal.ofBits .f32 wOne = 1 := by
  simp [Ideal.ofBits, Ideal.ieee, wOne, -EReal.coe_mul]; norm_num

/-- The word `0x3A800000` (exponent field `117`, fraction zero) denotes `2²³ · 2^(117 − 127 − 23) = 1/1024`. -/
private theorem ker_cell : Ideal.ofBits .f32 wCell = ((1 / 1024 : ℝ) : EReal) := by
  simp [Ideal.ofBits, Ideal.ieee, wCell, -EReal.coe_mul]; norm_num

/-! ## The class's entry as a sum over the row -/

/-- For a column `c < 4096` and a label word `w < 4096`, the comparison of `c` written as a 32-bit word with `w`
    is the bit `1` exactly when `c` is the class `w` names: both numbers are below `2³²` and below `4096`, so the
    words are equal exactly when the numbers are, and `w mod 4096 = w`. -/
private theorem ker_cmpi_iff (c : Fin 4096) (w : BitVec 32) (hw : w.toNat < 4096) :
    IntOp.cmpi .eq (BitVec.ofNat 32 c.val) w = 1 ↔ c = tgt w := by
  have hc := c.isLt
  have key : BitVec.ofNat 32 c.val = w ↔ c = tgt w := by
    constructor
    · intro h
      subst h
      apply Fin.ext
      simp only [tgt, BitVec.toNat_ofNat]
      omega
    · intro h
      subst h
      apply BitVec.eq_of_toNat_eq
      simp only [tgt, BitVec.toNat_ofNat]
      omega
  rw [← key]
  simp only [IntOp.cmpi]
  by_cases h : BitVec.ofNat 32 c.val = w
  · simp [h]
  · have hb : (BitVec.ofNat 32 c.val == w) = false := beq_eq_false_iff_ne.2 h
    rw [hb]
    simp [h]

/-- The sum over the row of the shifted entries at the columns equal to the label, zeros elsewhere, is the class's
    shifted entry: every term but the class's is a zero. -/
private theorem ker_onehot (x : Fin 4096 → EReal) (M : EReal) (w : BitVec 32) (hw : w.toNat < 4096) :
    ∑ c : Fin 4096, Scalar.select (IntOp.cmpi .eq (BitVec.ofNat 32 c.val) w) (x c - M) 0 = x (tgt w) - M := by
  rw [Finset.sum_eq_single (tgt w)]
  · rw [Scalar.select, if_pos ((ker_cmpi_iff _ _ hw).2 rfl)]
  · intro c _ hc
    rw [Scalar.select, if_neg (fun h => hc ((ker_cmpi_iff _ _ hw).1 h))]
  · intro h; exact absurd (Finset.mem_univ _) h

/-- The tiled arrangement of a row's loss is the row's loss, for a label word below `4096`. -/
theorem kerLoss_eq (x : Fin 4096 → EReal) (w : BitVec 32) (hw : w.toNat < 4096) : kerLoss x w = lossRow x w := by
  unfold kerLoss lossRow focal logp lse rowMax weight
  simp only [ker_negInf, ker_zero, ker_one, ker_onehot _ _ _ hw, zero_sub]

/-! ## A block's sum spread over the cells of a tile -/

/-- One or more copies of `−∞` add up to `−∞`. -/
private theorem ker_nsmul_bot (n : ℕ) : (n + 1) • (⊥ : EReal) = ⊥ := by
  rw [succ_nsmul, EReal.add_bot]

/-- One or more copies of `+∞` add up to `+∞`. -/
private theorem ker_nsmul_top (n : ℕ) : (n + 1) • (⊤ : EReal) = ⊤ := by
  induction n with
  | zero => simp
  | succ k ih => rw [succ_nsmul, ih, EReal.top_add_top]

/-- `1024` cells each holding `y · 2⁻¹⁰` add up to `y`. -/
theorem sum_cells (y : EReal) : ∑ _j : Fin 1024, y * Ideal.ofBits .f32 wCell = y := by
  rw [ker_cell, Finset.sum_const, Finset.card_univ, Fintype.card_fin]
  induction y using EReal.rec with
  | bot =>
    rw [EReal.bot_mul_coe_of_pos (by norm_num)]
    exact ker_nsmul_bot 1023
  | coe r => rw [← EReal.coe_mul, ← EReal.coe_nsmul]; congr 1; simp; ring
  | top =>
    rw [EReal.top_mul_coe_of_pos (by norm_num)]
    exact ker_nsmul_top 1023

/-! ## The rows as blocks -/

/-- A sum over the `32768` rows is the sum over the `64` blocks of the sums over each block's `512` rows, row
    `512 t + r` being row `r` of block `t`: `(t, r) ↦ 512 t + r` is a bijection of the pairs with the rows. -/
theorem sum_blocks (f : Fin 32768 → EReal) :
    ∑ t : Fin 64, ∑ r : Fin 512, f ⟨t.val * 512 + r.val, by have := t.isLt; have := r.isLt; omega⟩ = ∑ n : Fin 32768, f n := by
  rw [← Fintype.sum_prod_type']
  refine Fintype.sum_equiv (finProdFinEquiv : Fin 64 × Fin 512 ≃ Fin (64 * 512)) _ _ (fun p => ?_)
  congr 1
  apply Fin.ext
  simp [finProdFinEquiv]
  omega

end Cert.Focal

end
-- ==== Proof.RefMath.lean ====
/-
  The plain arrangement of a row's loss equals the focal loss of the class's log-probability, when every logit
  is a real number.

  The largest entry taken once more against `−∞` is itself, and a sum added to a zero is the sum: so the plain
  arrangement's log-probability is `logp x k` word for word. With real logits the largest entry is a real number,
  each shifted exponential a positive real, their sum a positive real, its logarithm a real: the log-probability
  is a real number `L`, the probability `exp L` a real, `d = 1 − exp L` a real. The exponent chosen is one of the
  reals `0`, `5`, `3`, and on a real base `d ^ (0 : ℝ) = 1`, `d ^ (5 : ℝ) = d⁵`, `d ^ (3 : ℝ) = d³` (a real power
  with a natural exponent is the natural power, at a negative base too), the powers equal to the products the
  weight writes. The two comparisons are the same terms on both sides and are not evaluated.
-/
import proofs.«402988_j6030134084185_2_alg».proof.Proof.Spec
import Mathlib.Analysis.SpecialFunctions.Pow.Real

noncomputable section

namespace Cert.Focal

open Idealize.ShloMosaic Idealize.ShloMosaic.ValueIdx

/-! ## The constants as extended reals -/

/-- The word of `−∞` denotes `⊥`. -/
theorem ofBits_wNegInf : Ideal.ofBits .f32 wNegInf = ⊥ := by
  show Ideal.ofBits .f32 0xFF800000#32 = ⊥
  simp [Ideal.ofBits, Ideal.ieee]

/-- The word of `+0.0` denotes `0`. -/
theorem ofBits_wZero : Ideal.ofBits .f32 wZero = 0 := by
  show Ideal.ofBits .f32 0x00000000#32 = 0
  simp [Ideal.ofBits, Ideal.ieee]

/-- The word of `1.0` denotes `1`. -/
theorem ofBits_wOne : Ideal.ofBits .f32 wOne = 1 := by
  show Ideal.ofBits .f32 0x3F800000#32 = 1
  simp [Ideal.ofBits, Ideal.ieee, -EReal.coe_mul]; norm_num

/-- The word of `3.0` denotes the real `3`. -/
theorem ofBits_wThree : Ideal.ofBits .f32 wThree = ((3 : ℝ) : EReal) := by
  show Ideal.ofBits .f32 0x40400000#32 = _
  simp [Ideal.ofBits, Ideal.ieee, -EReal.coe_mul]; norm_num

/-- The word of `5.0` denotes the real `5`. -/
theorem ofBits_wFive : Ideal.ofBits .f32 wFive = ((5 : ℝ) : EReal) := by
  show Ideal.ofBits .f32 0x40A00000#32 = _
  simp [Ideal.ofBits, Ideal.ieee, -EReal.coe_mul]; norm_num

/-! ## Sums and largest entries of real families -/

/-- A finite sum of reals, read in the extended reals, is the real sum. -/
theorem coe_sum_real (s : Finset (Fin 4096)) (f : Fin 4096 → ℝ) :
    (∑ c ∈ s, (f c : EReal)) = ((∑ c ∈ s, f c : ℝ) : EReal) := by
  induction s using Finset.induction_on with
  | empty => simp
  | insert a s ha ih => rw [Finset.sum_insert ha, Finset.sum_insert ha, ih, EReal.coe_add]

/-- The largest entry of a nonempty finite family of reals, folded from `⊥`, is a real number: at one entry it is
    that entry, and the larger of two reals is a real. -/
theorem fold_max_real (f : Fin 4096 → ℝ) {s : Finset (Fin 4096)} (hs : s.Nonempty) :
    ∃ m : ℝ, s.fold max ⊥ (fun c => (f c : EReal)) = (m : EReal) := by
  induction hs using Finset.Nonempty.cons_induction with
  | singleton a => exact ⟨f a, by rw [Finset.fold_singleton]; exact max_bot_right _⟩
  | cons a s h hs ih =>
    obtain ⟨m, hm⟩ := ih
    exact ⟨max (f a) m, by
      rw [Finset.fold_cons, hm]; exact (EReal.coe_strictMono.monotone.map_max).symm⟩

/-- With real logits the class's log-probability is a real number: the largest entry `M` is real, each
    `exp (x c − M)` a positive real, their sum a positive real, whose logarithm is a real. -/
theorem logp_real (r : Fin 4096 → ℝ) (k : Fin 4096) :
    ∃ L : ℝ, logp (fun c => (r c : EReal)) k = (L : EReal) := by
  obtain ⟨M, hM⟩ := fold_max_real r (Finset.univ_nonempty (α := Fin 4096))
  have hexp : ∀ c, Ideal.exp ((r c : EReal) - (M : EReal)) = ((Real.exp (r c - M) : ℝ) : EReal) := fun c => rfl
  have hS : 0 < ∑ c : Fin 4096, Real.exp (r c - M) :=
    Finset.sum_pos (fun c _ => Real.exp_pos _) Finset.univ_nonempty
  refine ⟨(r k - M) - Real.log (∑ c : Fin 4096, Real.exp (r c - M)), ?_⟩
  unfold logp lse rowMax
  rw [hM]
  simp only [hexp]
  rw [coe_sum_real, Ideal.log_coe, if_neg (not_le.mpr hS)]
  rfl

/-! ## The plain arrangement -/

/-- The largest entry taken once more against `⊥` is itself and a sum added to `0` is the sum: the plain
    arrangement's log-probability is `logp x k`. -/
theorem refLoss_unfold (x : Fin 4096 → EReal) (k : Fin 4096) :
    refLoss x k =
      (-(Ideal.pow (Ideal.ofBits .f32 wOne - Ideal.exp (logp x k))
        (Scalar.select (Ideal.cmp .oge (Ideal.exp (logp x k)) (Ideal.ofBits .f32 wHalf)) (Ideal.ofBits .f32 wZero)
          (Scalar.select (Ideal.cmp .olt (Ideal.exp (logp x k)) (Ideal.ofBits .f32 wFifth))
            (Ideal.ofBits .f32 wFive) (Ideal.ofBits .f32 wThree))))) * logp x k := by
  simp only [refLoss, logp, lse, rowMax, ofBits_wNegInf, max_bot_left, ofBits_wZero, zero_add]

/-- A real base raised to the exponent the two bits select, `0`, `5` or `3`, is `1`, the five-fold or the
    three-fold product: `d ^ (0 : ℝ) = 1`, and a real power with a natural exponent is the natural power. -/
theorem pow_select (d : ℝ) (b1 b2 : BitVec 1) :
    Ideal.pow (d : EReal) (Scalar.select b1 (Ideal.ofBits .f32 wZero)
        (Scalar.select b2 (Ideal.ofBits .f32 wFive) (Ideal.ofBits .f32 wThree)))
      = Scalar.select b1 1 (Scalar.select b2
          ((((d : EReal) * d) * d) * ((d : EReal) * d)) (((d : EReal) * d) * d)) := by
  by_cases h1 : b1 = 1#1
  · subst h1
    rw [select_one, select_one, ofBits_wZero]
    show ((d ^ (0 : ℝ) : ℝ) : EReal) = 1
    rw [Real.rpow_zero]; rfl
  · rw [eq_zero_of_ne_one h1, select_zero, select_zero]
    by_cases h2 : b2 = 1#1
    · subst h2
      rw [select_one, select_one, ofBits_wFive]
      show ((d ^ (5 : ℝ) : ℝ) : EReal) = _
      have h5 : (5 : ℝ) = ((5 : ℕ) : ℝ) := by norm_num
      have hp : d ^ 5 = (((d * d) * d) * (d * d)) := by ring
      rw [h5, Real.rpow_natCast, hp]
      simp only [EReal.coe_mul]
    · rw [eq_zero_of_ne_one h2, select_zero, select_zero, ofBits_wThree]
      show ((d ^ (3 : ℝ) : ℝ) : EReal) = _
      have h3 : (3 : ℝ) = ((3 : ℕ) : ℝ) := by norm_num
      have hp : d ^ 3 = ((d * d) * d) := by ring
      rw [h3, Real.rpow_natCast, hp]
      simp only [EReal.coe_mul]

/-- With real logits the plain arrangement of a row's loss is the focal loss of the class's log-probability. -/
theorem refLoss_eq (x : Fin 4096 → EReal) (k : Fin 4096) (hx : ∀ c, ∃ r : ℝ, x c = (r : EReal)) :
    refLoss x k = focal (logp x k) := by
  choose r hr using hx
  obtain rfl : x = fun c => (r c : EReal) := funext hr
  obtain ⟨L, hL⟩ := logp_real r k
  rw [refLoss_unfold, hL]
  unfold focal weight
  have hpt : Ideal.exp (L : EReal) = ((Real.exp L : ℝ) : EReal) := rfl
  have hd : (1 : EReal) - ((Real.exp L : ℝ) : EReal) = ((1 - Real.exp L : ℝ) : EReal) := rfl
  rw [hpt, ofBits_wOne, hd, pow_select, neg_mul]

end Cert.Focal

end
-- ==== Proof.TileSum.lean ====
/-
  The sum of a 16 × 128 array made of two tiles of 8 × 128 = 1024 equal cells.

  Every cell of tile `p` (rows `8p … 8p+7`) holds `∑_{s<32} g (32p+s) · cst`, where the constant `cst` is such that
  1024 copies of `y · cst` add up to `y`. Summing a tile's cells and commuting the two sums gives `∑_{s<32} g (32p+s)`;
  the two tiles together give `∑_{t<64} g t`. Only the commutative-monoid structure of the extended reals is used.
-/
import Idealize.ShloMosaic.Lib.ValueIdx

open scoped BigOperators

namespace Cert.Focal

open Idealize.ShloMosaic Idealize.ShloMosaic.ValueIdx

/-- 1024 equal cells, each the sum of 32 terms scaled by `cst`, add up to the sum of the 32 terms: the two sums
    commute, and 1024 copies of one scaled term add up to the term. -/
private theorem tile_cells (cst : EReal) (hc : ∀ y : EReal, ∑ _j : Fin 1024, y * cst = y) (h : ℕ → EReal) :
    ∑ _j : Fin 1024, ∑ s ∈ Finset.range 32, h s * cst = ∑ s ∈ Finset.range 32, h s := by
  rw [Finset.sum_comm]
  exact Finset.sum_congr rfl (fun s _ => hc (h s))

/-- A sum over 16 rows of a term that depends on the row only through its tile `a / 8` is 8 copies of the term of
    tile 0 and 8 copies of the term of tile 1. -/
private theorem tile_rows (G : ℕ → EReal) : ∑ a : Fin 16, G (a.val / 8) = 8 • G 0 + 8 • G 1 := by
  rw [Fin.sum_univ_eq_sum_range (fun a => G (a / 8)) 16, show (16 : ℕ) = 8 + 8 from rfl, Finset.sum_range_add]
  have h0 : ∑ x ∈ Finset.range 8, G (x / 8) = ∑ _x ∈ Finset.range 8, G 0 :=
    Finset.sum_congr rfl (fun x hx => by
      have : x / 8 = 0 := by have := Finset.mem_range.mp hx; omega
      rw [this])
  have h1 : ∑ x ∈ Finset.range 8, G ((8 + x) / 8) = ∑ _x ∈ Finset.range 8, G 1 :=
    Finset.sum_congr rfl (fun x hx => by
      have : (8 + x) / 8 = 1 := by have := Finset.mem_range.mp hx; omega
      rw [this])
  rw [h0, h1, Finset.sum_const, Finset.sum_const, Finset.card_range]

/-- 8 rows of 128 equal cells are 1024 equal cells. -/
private theorem tile_block (c : EReal) : 8 • (128 • c) = ∑ _j : Fin 1024, c := by
  rw [Finset.sum_const, Finset.card_univ, Fintype.card_fin, ← mul_nsmul']

theorem sum_tiles (cst z : EReal) (hc : ∀ y : EReal, ∑ _j : Fin 1024, y * cst = y) (hz : z = 0) (g : ℕ → EReal) :
    ∑ j : (⟨2, ![16, 128]⟩ : Shape).Idx, (z + ∑ s ∈ Finset.range 32, g (32 * ((j 0).val / 8) + s) * cst)
      = ∑ t ∈ Finset.range 64, g t := by
  subst hz
  simp only [zero_add]
  rw [sum_idx2 (fun j : (⟨2, ![16, 128]⟩ : Shape).Idx => ∑ s ∈ Finset.range 32, g (32 * ((j 0).val / 8) + s) * cst)]
  have hin : ∀ a : Fin 16, ∑ b : Fin 128, ∑ s ∈ Finset.range 32, g (32 * (((ix2 a b : (⟨2, ![16, 128]⟩ : Shape).Idx) 0).val / 8) + s) * cst
      = 128 • ∑ s ∈ Finset.range 32, g (32 * (a.val / 8) + s) * cst := by
    intro a
    rw [← Fintype.card_fin 128, ← Finset.card_univ, ← Finset.sum_const]
    rfl
  rw [Finset.sum_congr rfl (fun a _ => hin a)]
  rw [tile_rows (fun p => 128 • ∑ s ∈ Finset.range 32, g (32 * p + s) * cst)]
  rw [tile_block, tile_block, tile_cells cst hc (fun s => g (32 * 0 + s)), tile_cells cst hc (fun s => g (32 * 1 + s))]
  rw [show (64 : ℕ) = 32 + 32 from rfl, Finset.sum_range_add]
  simp only [Nat.mul_zero, Nat.zero_add, Nat.mul_one]

end Cert.Focal
-- ==== Proof.KerValue.lean ====
/-
  What the tiled program's result holds: the sum of the rows' losses.

  The region walks 64 grid points; point `t` holds rows `512 t … 512 t + 511` of the logits and their labels, and
  its body computes those rows' losses, adds them up to one number (the block's loss), multiplies it by `2⁻¹⁰` and adds
  that to every one of the 8 × 128 cells of its output tile. Points `0 … 31` share output tile `0`, points `32 … 63`
  tile `1`; the first point of each run of 32 clears the tile before adding, and the last writes it back. So after the
  region every cell of tile `p` of the 16 × 128 output array holds `0 + ∑_{s<32} (block 32p+s's loss) · 2⁻¹⁰`.
  The one host operation after the region adds all 2048 cells to a zero: each tile's 1024 equal cells give back the
  sum of its 32 blocks' losses, the two tiles the sum over all 64 blocks, and the blocks' rows are all the rows.

  In order: what each of the body's two cases leaves in the tile's buffer, as a pure function of what it found; the
  tile's contents after each point as a running sum; the blocks read where the index maps put them; the output
  array after the region; the result after the last host operation; the run.
-/
import proofs.«402988_j6030134084185_2_alg».proof.Proof.Gen.KernelIdeal.Frame
import proofs.«402988_j6030134084185_2_alg».proof.Proof.Spec
import proofs.«402988_j6030134084185_2_alg».proof.Proof.Payload
import proofs.«402988_j6030134084185_2_alg».proof.Proof.KerMath
import proofs.«402988_j6030134084185_2_alg».proof.Proof.RefMath
import proofs.«402988_j6030134084185_2_alg».proof.Proof.TileSum
import Idealize.ShloMosaic.Lib.Pipeline.Value
import Idealize.ShloMosaic.Lib.ValueIdx
import Idealize.ShloMosaic.PureOps.Ideal.Laws

set_option maxRecDepth 16384

noncomputable section

namespace Cert.KernelIdeal.KerValue

open Cert.KernelIdeal Cert.KernelIdeal.Gen Cert.Focal
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case of the body leaves in the output tile's buffer -/

section Pieces
variable {F : FTy → Type} [FloatOps F]

theorem hz2 : (![0, 0] : Fin 2 → Nat) = fun _ => 0 := by funext a; fin_cases a <;> rfl
theorem hz3 : (![0, 0, 0] : Fin 3 → Nat) = fun _ => 0 := by funext a; fin_cases a <;> rfl

/-- At the first point of a run the body stores zeros over the whole tile, reads them back, and stores the sum of what
    it read and the point's addend over the whole tile: the later store covers, and what it read is the zeros. -/
theorem out0_A_eq (c : Dev nD) (i : grid0.Coords) (arg2 : Memref sig .tc .vmem S512x4096 .f32) (harg2 : arg2.IsWhole) (arg3 : Memref sig .tc .vmem S1x1x512 .i32) (harg3 : arg3.IsWhole) (arg4 : Memref sig .tc .vmem S8x128 .f32) (harg4 : arg4.IsWhole) (hc0 : cond0_0 i)
    (x0 : Vec F S512x4096 .f32) (x1 : Vec F S1x1x512 .i32) :
    out0_A_2 (F := F) c i arg2 harg2 arg3 harg3 arg4 harg4 hc0 x0 x1 = k0_pay1 (k0_pay3 x0 x1) (k0_pay2 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S8x128) hz2, View.readCov_unit_zero (S := S8x128) _ hz2]
  simp only [View.readAt_eq_ld, harg2.read_unread, harg3.read_unread, View.ld_unit_zero (S := S512x4096) hz2,
    View.ld_unit_zero (S := S1x1x512) hz3]

/-- At every other point the body reads the tile as the point before left it and stores the sum of that and the
    point's addend over the whole tile. -/
theorem out0_B_eq (c : Dev nD) (i : grid0.Coords) (arg2 : Memref sig .tc .vmem S512x4096 .f32) (harg2 : arg2.IsWhole) (arg3 : Memref sig .tc .vmem S1x1x512 .i32) (harg3 : arg3.IsWhole) (arg4 : Memref sig .tc .vmem S8x128 .f32) (harg4 : arg4.IsWhole) (hc0 : ¬cond0_0 i)
    (x0 : Vec F S512x4096 .f32) (x1 : Vec F S1x1x512 .i32) (xo2 : Vec F S8x128 .f32) :
    out0_B_2 (F := F) c i arg2 harg2 arg3 harg3 arg4 harg4 hc0 x0 x1 xo2 = k0_pay1 (k0_pay3 x0 x1) xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero (S := S8x128) hz2]
  simp only [View.readAt_eq_ld, harg2.read_unread, harg3.read_unread, harg4.read_unread, View.ld_unit_zero (S := S512x4096) hz2,
    View.ld_unit_zero (S := S1x1x512) hz3, View.ld_unit_zero (S := S8x128) hz2]

end Pieces

variable (m : (ℓ : Loc nD τ sig) → Buf (Elt Ideal) ℓ)

/-! ## The tile after each point: a running sum of the blocks' losses -/

/-- The logits' block and the labels' block at a point, under their literal types. -/
abbrev xblk (c : Dev nD) (t : Fin cfg0.N) : Vec Ideal S512x4096 .f32 := iblk m c 0 t
abbrev tblk (c : Dev nD) (t : Fin cfg0.N) : Vec Ideal S1x1x512 .i32 := iblk m c 1 t

/-- Block `n`'s loss: the sum over its 512 rows of the row's loss as the body computes it (zero past the grid,
    where it is never read). -/
def blockLoss (c : Dev nD) (n : ℕ) : EReal :=
  if h : n < cfg0.N then ∑ r : Fin 512, k0_pay3 (F := Ideal) (xblk m c ⟨n, h⟩) (tblk m c ⟨n, h⟩) (ix2 r (0 : Fin 1)) else 0

/-- After point `t` every cell of the tile's buffer holds zero plus the sum, over the points of `t`'s run of 32 up to
    `t`, of the block's loss times `2⁻¹⁰`: the buffer is cleared at the run's first point and each point adds its own
    addend to what the point before left. -/
theorem outsAt0_eq (c : Dev nD) (t : Fin cfg0.N) (j : S8x128.Idx) :
    outsAt0 m c t.val t.isLt j
      = Ideal.ofBits .f32 wZero + ∑ s ∈ Finset.range (t.val % 32 + 1), blockLoss m c (32 * (t.val / 32) + s) * Ideal.ofBits .f32 wCell := by
  have hlt : 32 * (t.val / 32) + t.val % 32 < cfg0.N := by rw [Nat.div_add_mod]; exact t.isLt
  have key := Pipeline.eq_accAt_of_mod (N := cfg0.N) (outsAt0 m c) 32
    (fun n h => k0_pay1 (k0_pay3 (xblk m c ⟨n, h⟩) (tblk m c ⟨n, h⟩)) (k0_pay2 (F := Ideal)))
    (fun n h acc => k0_pay1 (k0_pay3 (xblk m c ⟨n, h⟩) (tblk m c ⟨n, h⟩)) acc)
    (fun n h h0 => (outsAt0_A m c ⟨n, h⟩ h0).trans (out0_A_eq ..))
    (fun n h hs => (outsAt0_B m c ⟨n + 1, h⟩ hs).trans (out0_B_eq ..))
    (by norm_num) t.val t.isLt hlt
  rw [key]
  have hmod : t.val % 32 ≤ 31 := by have := Nat.mod_lt t.val (by norm_num : 0 < 32); omega
  exact Pipeline.accAt_add_apply _ _ (fun _ => Ideal.ofBits .f32 wZero) (fun n _ => blockLoss m c n * Ideal.ofBits .f32 wCell)
    (32 * (t.val / 32)) 31
    (fun h i => by
      show k0_pay1 _ _ i = _
      rw [pay1_apply, pay2_apply]
      unfold blockLoss; rw [dif_pos h])
    (fun n h acc i _ _ => by
      show k0_pay1 _ _ i = _
      rw [pay1_apply]
      unfold blockLoss; rw [dif_pos h])
    (t.val % 32) hmod hlt j

/-! ## The blocks, read where the index maps put them -/

/-- The index maps over the grid: point `t` takes block `t` of the logits and of the labels, and writes tile `t / 32`. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val / 32 ∧ win0_2.index t (1 : Fin 2) = 0 :=
  (by decide +kernel : ∀ t : Fin grid0.N, _)

theorem row_lt (t : Fin cfg0.N) (r : Fin 512) : t.val * 512 + r.val < 32768 := by
  have h1 : t.val < 64 := lt_of_lt_of_eq t.isLt N_0
  have h2 := r.isLt
  omega

/-- Row `r` of the logits' block at point `t` is row `512 t + r` of the logits. -/
theorem xblk_apply (c : Dev nD) (t : Fin cfg0.N) (r : Fin 512) (cc : Fin 4096) :
    xblk m c t (ix2 r cc) = m ((c : Thread nD τ).loc main_arg0) (ix2 ⟨t.val * 512 + r.val, row_lt t r⟩ cc) := by
  show V m c main_arg0 (((cfg0.win 0).blk t).view.emb (ix2 r cc)) = _
  rw [V_main_arg0]
  refine congrArg _ (funext fun a => Fin.ext ?_)
  obtain ⟨e0, e1, -⟩ := idx_facts t
  match a with
  | ⟨0, _⟩ => show win0_0.index t (0 : Fin 2) * 512 + 1 * r.val = t.val * 512 + r.val; omega
  | ⟨1, _⟩ => show win0_0.index t (1 : Fin 2) * 4096 + 1 * cc.val = cc.val; omega

/-- The region finds the labels laid out as 64 × 1 × 512: the one host operation before it re-lays the label vector. -/
theorem V_main_v0 (c : Dev nD) : (V m c main_v0 : S64x1x512.Idx → BitVec 32)
    = shapeCast S64x1x512 (m ((c : Thread nD τ).loc main_arg1)) shapeCasts_S32768_S64x1x512 := by
  show StableHlo.after hostOps0 (fun b => m (c, b)) (Proc.devRef .tc main_v0) = _
  after_results
  rfl

/-- Entry `r` of the labels' block at point `t` is label `512 t + r`. -/
theorem tblk_apply (c : Dev nD) (t : Fin cfg0.N) (r : Fin 512) :
    tblk m c t (ix3 (0 : Fin 1) (0 : Fin 1) r) = m ((c : Thread nD τ).loc main_arg1) (ix1 ⟨t.val * 512 + r.val, row_lt t r⟩) := by
  show V m c main_v0 (((cfg0.win 1).blk t).view.emb (ix3 (0 : Fin 1) (0 : Fin 1) r)) = _
  rw [V_main_v0]
  refine shapeCast_apply _ shapeCasts_S32768_S64x1x512 _ (ix1 ⟨t.val * 512 + r.val, row_lt t r⟩) ?_
  obtain ⟨-, -, e0, e1, e2, -⟩ := idx_facts t
  rewrite [Shape.rowMajor_val_one, Shape.rowMajor_val_three]
  show t.val * 512 + r.val = ((win0_1.index t (0 : Fin 3) * 1 + 1 * 0) * 1 + (win0_1.index t (1 : Fin 3) * 1 + 1 * 0)) * 512 + (win0_1.index t (2 : Fin 3) * 512 + 1 * r.val)
  omega

/-! ## The output array after the region -/

/-- What every cell of tile `p` ends holding: zero plus the sum over the tile's 32 blocks of the block's loss times `2⁻¹⁰`. -/
def tileVal (c : Dev nD) (p : ℕ) : EReal :=
  Ideal.ofBits .f32 wZero + ∑ s ∈ Finset.range 32, blockLoss m c (32 * p + s) * Ideal.ofBits .f32 wCell

/-- The 16 × 128 output array: row `a` belongs to tile `a / 8`. -/
def outArr (c : Dev nD) : S16x128.Idx → EReal := fun i => tileVal m c ((i 0).val / 8)

/-- What a point that writes its tile back (the last of a run of 32) writes is its tile of that array: the running
    sum there is over the whole run. -/
theorem flushed2_eq (c : Dev nD) (t : Fin cfg0.N) (hf : (cfg0.win 2).flush t = true) :
    (dats m 0 c).flushed 2 t = ((cfg0.win 2).blk t).view.read (Elt Ideal) (outArr m c) := by
  have h31 : t.val % 32 = 31 := (flush0_2 t).mp hf
  show (cfg0.win 2).cut (grid0.coords t) ((dats m 0 c).after 2 t) = _
  rw [after0_2]
  funext j
  show outsAt0 m c t.val t.isLt j = outArr m c (((cfg0.win 2).blk t).view.emb j)
  refine (outsAt0_eq m c t j).trans ?_
  have hidx : ((((cfg0.win 2).blk t).view.emb j) 0).val / 8 = t.val / 32 := by
    obtain ⟨-, -, -, -, -, e0, e1⟩ := idx_facts t
    show (win0_2.index t (0 : Fin 2) * 8 + 1 * (j 0).val) / 8 = t.val / 32
    have hj : (j 0).val < 8 := (j 0).isLt
    omega
  unfold outArr tileVal
  rw [hidx, h31]

/-- An index of the array is in point `t`'s tile iff each coordinate is in the tile's range on its axis. -/
theorem mem_blk2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1).slice (win0_2.rect t)).set ↔ _
  rw [View.set_slice_whole, Rect.mem_set_unit]
  exact Iff.rfl

/-- Every index of the array is in the tile some writing-back point writes: row `a` in the tile of point `32 (a / 8) + 31`. -/
theorem cover2 (i : S16x128.Idx) : ∃ t : Fin cfg0.N, (cfg0.win 2).flush t = true ∧ i ∈ ((cfg0.win 2).blk t).view.set := by
  have hi0 : (i 0).val < 16 := (i 0).isLt
  have hi1 : (i 1).val < 128 := (i 1).isLt
  have hlt : 32 * ((i 0).val / 8) + 31 < cfg0.N := by rw [show cfg0.N = 64 from N_0]; omega
  refine ⟨⟨32 * ((i 0).val / 8) + 31, hlt⟩, (flush0_2 _).mpr (by show (32 * ((i 0).val / 8) + 31) % 32 = 31; omega), ?_⟩
  rw [mem_blk2]
  obtain ⟨-, -, -, -, -, e0, e1⟩ := idx_facts ⟨32 * ((i 0).val / 8) + 31, hlt⟩
  have e0' : win0_2.index ⟨32 * ((i 0).val / 8) + 31, hlt⟩ (0 : Fin 2) = (i 0).val / 8 := by
    rw [e0]; show (32 * ((i 0).val / 8) + 31) / 32 = _; omega
  intro a
  match a with
  | ⟨0, _⟩ => show win0_2.index ⟨32 * ((i 0).val / 8) + 31, hlt⟩ (0 : Fin 2) * 8 ≤ (i 0).val ∧ (i 0).val < win0_2.index ⟨32 * ((i 0).val / 8) + 31, hlt⟩ (0 : Fin 2) * 8 + 8; omega
  | ⟨1, _⟩ => show win0_2.index ⟨32 * ((i 0).val / 8) + 31, hlt⟩ (1 : Fin 2) * 128 ≤ (i 1).val ∧ (i 1).val < win0_2.index ⟨32 * ((i 0).val / 8) + 31, hlt⟩ (1 : Fin 2) * 128 + 128; omega

/-- So the output array ends holding `outArr`. -/
theorem final2 (c : Dev nD) : (dats m 0 c).arrAt 2 cfg0.N = outArr m c :=
  (dats m 0 c).arrAt_eq_of_cover 2 (outArr m c) (fun t hf => flushed2_eq m c t hf) (cover2)

/-! ## The result after the last host operation -/

/-- The host operations after the region leave in the result the sum of the output array's cells, added to a zero. -/
theorem tail_v2 (c : Dev nD) :
    Pipeline.afterTail₀ cfgs (dats m) 0 (V0 m) [hostOps1] c main_v2
      = Host.reduceAdd (F := Ideal) (outArr m c) (constant S_ .f32 0x00000000#32) reducesTo_S16x128_S_d0_1 h_S_ := by
  unfold Pipeline.afterTail₀
  show StableHlo.after hostOps1 _ (Proc.devRef .tc main_v2) = _
  after_results
  exact congrArg (fun a => Host.reduceAdd (F := Ideal) a (constant S_ .f32 0x00000000#32) reducesTo_S16x128_S_d0_1 h_S_)
    ((Pipeline.withArrays_arr spec0 launch0.win.arr_inj c _ _ 2).trans (final2 m c))

/-- With every label below 4096, block `t`'s loss is the sum of its rows' losses: the body's arithmetic at a row is
    the tiled arrangement of the row's loss, read at the rows and labels the block holds. -/
theorem blockLoss_eq (c : Dev nD) (hT : ∀ j, (m ((c : Thread nD τ).loc main_arg1) j).toNat < 4096) (t : Fin 64) :
    blockLoss m c t.val = ∑ r : Fin 512, lossRow (rowOf (m ((c : Thread nD τ).loc main_arg0)) ⟨t.val * 512 + r.val, by have := t.isLt; have := r.isLt; omega⟩)
      (m ((c : Thread nD τ).loc main_arg1) (ix1 ⟨t.val * 512 + r.val, by have := t.isLt; have := r.isLt; omega⟩)) := by
  have h : t.val < cfg0.N := by rw [show cfg0.N = 64 from N_0]; exact t.isLt
  unfold blockLoss
  rw [dif_pos h]
  refine Finset.sum_congr rfl fun r _ => ?_
  rw [pay3_apply, tblk_apply, ← kerLoss_eq _ _ (hT _)]
  refine congrArg (fun x => kerLoss x _) (funext fun cc => ?_)
  exact xblk_apply m c ⟨t.val, h⟩ r cc

/-- The sum of the output array's cells, added to a zero, is the total loss: each tile's 1024 equal cells give back the
    sum of its 32 blocks' losses, the two tiles all 64 blocks, and the blocks' rows are all the rows. -/
theorem kernel_total (c : Dev nD) (hT : ∀ j, (m ((c : Thread nD τ).loc main_arg1) j).toNat < 4096) :
    Host.reduceAdd (F := Ideal) (outArr m c) (constant S_ .f32 0x00000000#32) reducesTo_S16x128_S_d0_1 h_S_
      = fun _ => total (m ((c : Thread nD τ).loc main_arg0)) (m ((c : Thread nD τ).loc main_arg1)) := by
  funext i
  simp only [Host.reduceAdd, Ideal.hostReduceAdd_def]
  refine (Ideal.hostReduceAdd_total reducesTo_S16x128_S_d0_1 (fun b => b.elim0) (outArr m c) _ i).trans ?_
  show Ideal.ofBits .f32 wZero + ∑ j : S16x128.Idx, outArr m c j = _
  unfold outArr tileVal
  rw [sum_tiles (Ideal.ofBits .f32 wCell) (Ideal.ofBits .f32 wZero) sum_cells ofBits_wZero (blockLoss m c), ofBits_wZero, zero_add,
    Finset.sum_range (fun t => blockLoss m c t)]
  unfold total
  rw [← sum_blocks]
  exact Finset.sum_congr rfl fun t _ => blockLoss_eq m c hT t

/-! ## The run -/

/-- From any memory whose labels are all below 4096: every weakly fair execution of the tiled program terminates
    with the result at the total loss of the arguments, and the arguments unchanged. -/
theorem run_value (ρ : Dev nD → PrngReg) (hT : ∀ (c : Dev nD) j, (m ((c : Thread nD τ).loc main_arg1) j).toNat < 4096) :
    θ_run defs (onTc (τ := τ) (main (F := Ideal))) ⟨m, fun _ => 0, ρ⟩ fun r => ∀ c : Dev nD,
      r.2.mem ((c : Thread nD τ).loc main_v2) = (fun _ => total (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 (by decide) (by decide))).trans ((tail_v2 m c).trans (kernel_total m c (hT c))),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.KerValue

end
-- ==== Proof.RefRun.lean ====
/-
  The plain program's run, read back in three stretches.

  Its @main is a straight line of 63 array operations: the first 15 compute the row-wise log-softmax of the logits,
  the next 24 pick from each row the entry its label names (a row-wise gather of the log-softmax, guarded by a range
  test that replaces an out-of-range pick by a filler), and the last 24 turn the picked log-probabilities into the
  rows' losses and add them up. After each stretch the few arrays the later operations still read are named as
  functions of the two arguments (the stage functions `ReadP.val_…`), so that no step ever holds the whole
  composed term: the result after the whole line is the last stage of the arguments, and the arguments are unchanged.
-/
import proofs.«402988_j6030134084185_2_alg».proof.Proof.RefRead
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Operations 1–15: the log-softmax of the logits. -/
abbrev opsA : List (HloOp τ sig (Elt F)) :=
  [ TRef.nullary (TRef.of (T := ⟨S_, .f32⟩) main_call0_cst) (constant S_ .f32 0xFF800000#32),
    TRef.binary (TRef.of (T := ⟨S32768x4096, .f32⟩) main_arg0) (TRef.of (T := ⟨S_, .f32⟩) main_call0_cst) (TRef.of (T := ⟨S32768, .f32⟩) main_call0_v0) (fun x v => Host.reduce FloatOps.maximumf x v reducesTo_S32768x4096_S32768_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S32768, .f32⟩) main_call0_v1) (broadcastInDim S32768 ![] bcast_S_S32768),
    TRef.binary (TRef.of (T := ⟨S32768, .f32⟩) main_call0_v1) (TRef.of (T := ⟨S32768, .f32⟩) main_call0_v0) (TRef.of (T := ⟨S32768, .f32⟩) main_call0_v2) maximumf,
    TRef.unary (TRef.of (T := ⟨S32768, .f32⟩) main_call0_v2) (TRef.of (T := ⟨S32768x1, .f32⟩) main_call0_v3) (broadcastInDim S32768x1 ![0] bcast_S32768_S32768x1_0),
    TRef.unary (TRef.of (T := ⟨S32768x1, .f32⟩) main_call0_v3) (TRef.of (T := ⟨S32768x4096, .f32⟩) main_call0_v4) (broadcastInDim S32768x4096 ![0, 1] bcast_S32768x1_S32768x4096_0_1),
    TRef.binary (TRef.of (T := ⟨S32768x4096, .f32⟩) main_arg0) (TRef.of (T := ⟨S32768x4096, .f32⟩) main_call0_v4) (TRef.of (T := ⟨S32768x4096, .f32⟩) main_call0_v5) subf,
    TRef.unary (TRef.of (T := ⟨S32768x4096, .f32⟩) main_call0_v5) (TRef.of (T := ⟨S32768x4096, .f32⟩) main_call0_v6) Host.exp,
    TRef.nullary (TRef.of (T := ⟨S_, .f32⟩) main_call0_cst_1) (constant S_ .f32 0x00000000#32),
    TRef.binary (TRef.of (T := ⟨S32768x4096, .f32⟩) main_call0_v6) (TRef.of (T := ⟨S_, .f32⟩) main_call0_cst_1) (TRef.of (T := ⟨S32768, .f32⟩) main_call0_v7) (fun x v => Host.reduceAdd x v reducesTo_S32768x4096_S32768_d1 h_S_),
    TRef.unary (TRef.of (T := ⟨S32768, .f32⟩) main_call0_v7) (TRef.of (T := ⟨S32768x1, .f32⟩) main_call0_v8) (broadcastInDim S32768x1 ![0] bcast_S32768_S32768x1_0),
    TRef.unary (TRef.of (T := ⟨S32768x1, .f32⟩) main_call0_v8) (TRef.of (T := ⟨S32768x1, .f32⟩) main_call0_v9) Host.log,
    TRef.unary (TRef.of (T := ⟨S32768x1, .f32⟩) main_call0_v9) (TRef.of (T := ⟨S32768x4096, .f32⟩) main_call0_v10) (broadcastInDim S32768x4096 ![0, 1] bcast_S32768x1_S32768x4096_0_1),
    TRef.binary (TRef.of (T := ⟨S32768x4096, .f32⟩) main_call0_v5) (TRef.of (T := ⟨S32768x4096, .f32⟩) main_call0_v10) (TRef.of (T := ⟨S32768x4096, .f32⟩) main_v0) subf ]

/-- Operations 16–39: the labels as a column, the guarded row-wise pick, the column as a vector. -/
abbrev opsB : List (HloOp τ sig (Elt F)) :=
  [ unary main_arg1 main_v1 (broadcastInDim S32768x1 ![0] bcast_S32768_S32768x1_0 : (⟨S32768, .i32⟩ : BufTy).Contents (Elt F) → (⟨S32768x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S32768x1, .i32⟩) main_call1_v0) (broadcastInDim S32768x1 ![] bcast_S_S32768x1),
    TRef.binary (TRef.of (T := ⟨S32768x1, .i32⟩) main_v1) (TRef.of (T := ⟨S32768x1, .i32⟩) main_call1_v0) (TRef.of (T := ⟨S32768x1, .i1⟩) main_call1_v1) (cmpi .slt),
    TRef.nullary (TRef.of (T := ⟨S_, .i32⟩) main_call1_c_0) (constantI S_ 32 4096#32),
    TRef.unary (TRef.of (T := ⟨S_, .i32⟩) main_call1_c_0) (TRef.of (T := ⟨S32768x1, .i32⟩) main_call1_v2) (broadcastInDim S32768x1 ![] bcast_S_S32768x1),
    TRef.binary (TRef.of (T := ⟨S32768x1, .i32⟩) main_v1) (TRef.of (T := ⟨S32768x1, .i32⟩) main_call1_v2) (TRef.of (T := ⟨S32768x1, .i32⟩) main_call1_v3) addi,
    TRef.ternary (TRef.of (T := ⟨S32768x1, .i1⟩) main_call1_v1) (TRef.of (T := ⟨S32768x1, .i32⟩) main_call1_v3) (TRef.of (T := ⟨S32768x1, .i32⟩) main_v1) (TRef.of (T := ⟨S32768x1, .i32⟩) main_call1_v4) select,
    TRef.reshape (TRef.of (T := ⟨S32768x1, .i32⟩) main_call1_v4) (TRef.of (T := ⟨S32768x1x1, .i32⟩) main_call1_v5) rfl shapeCasts_S32768x1_S32768x1x1,
    TRef.nullary (TRef.of (T := ⟨S1, .i32⟩) main_call1_c_1) (constantI S1 32 4095#32),
    TRef.nullary (TRef.of (T := ⟨S_, .i32⟩) main_call1_c_2) (constantI S_ 32 0#32),
    TRef.unary (TRef.of (T := ⟨S_, .i32⟩) main_call1_c_2) (TRef.of (T := ⟨S32768x1x1, .i32⟩) main_call1_v6) (broadcastInDim S32768x1x1 ![] bcast_S_S32768x1x1),
    TRef.binary (TRef.of (T := ⟨S32768x1x1, .i32⟩) main_call1_v5) (TRef.of (T := ⟨S32768x1x1, .i32⟩) main_call1_v6) (TRef.of (T := ⟨S32768x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S32768x1x1, .i32⟩) main_call1_v9) (broadcastInDim S32768x1x1 ![0, 1, 2] bcast_S1x1x1_S32768x1x1_0_1_2),
    TRef.binary (TRef.of (T := ⟨S32768x1x1, .i32⟩) main_call1_v5) (TRef.of (T := ⟨S32768x1x1, .i32⟩) main_call1_v9) (TRef.of (T := ⟨S32768x1x1, .i1⟩) main_call1_v10) (cmpi .sle),
    TRef.binary (TRef.of (T := ⟨S32768x1x1, .i1⟩) main_call1_v7) (TRef.of (T := ⟨S32768x1x1, .i1⟩) main_call1_v10) (TRef.of (T := ⟨S32768x1x1, .i1⟩) main_call1_v11) andi,
    TRef.nullary (TRef.of (T := ⟨S_, .i1⟩) main_call1_c_3) (constantI S_ 1 1#1),
    TRef.binary (TRef.of (T := ⟨S32768x1x1, .i1⟩) main_call1_v11) (TRef.of (T := ⟨S_, .i1⟩) main_call1_c_3) (TRef.of (T := ⟨S32768x1, .i1⟩) main_call1_v12) (fun x v => Host.reduce IntOp.andi x v reducesTo_S32768x1x1_S32768x1_d2 h_S_),
    TRef.binary (TRef.of (T := ⟨S32768x4096, .f32⟩) main_v0) (TRef.of (T := ⟨S32768x1x1, .i32⟩) main_call1_v5) (TRef.of (T := ⟨S32768x1, .f32⟩) main_call1_v13) (fun x i => Host.gather gather_S32768x4096_S32768x1x1_S32768x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S32768x1, .f32⟩) main_call1_v14) (broadcastInDim S32768x1 ![] bcast_S_S32768x1),
    TRef.ternary (TRef.of (T := ⟨S32768x1, .i1⟩) main_call1_v12) (TRef.of (T := ⟨S32768x1, .f32⟩) main_call1_v13) (TRef.of (T := ⟨S32768x1, .f32⟩) main_call1_v14) (TRef.of (T := ⟨S32768x1, .f32⟩) main_v2) select,
    reshape main_v2 main_v3 rfl shapeCasts_S32768x1_S32768 ]

/-- Operations 40–63: probability, weight, loss, and the sum over the rows. -/
abbrev opsC : List (HloOp τ sig (Elt F)) :=
  [ unary main_v3 main_v4 (Host.exp : (⟨S32768, .f32⟩ : BufTy).Contents (Elt F) → (⟨S32768, .f32⟩ : BufTy).Contents (Elt F)),
    nullary main_cst (constant S_ .f32 0x3F000000#32),
    unary main_cst main_v5 (broadcastInDim S32768 ![] bcast_S_S32768 : (⟨S_, .f32⟩ : BufTy).Contents (Elt F) → (⟨S32768, .f32⟩ : BufTy).Contents (Elt F)),
    binary main_v4 main_v5 main_v6 (cmpf .oge : (⟨S32768, .f32⟩ : BufTy).Contents (Elt F) → (⟨S32768, .f32⟩ : BufTy).Contents (Elt F) → (⟨S32768, .i1⟩ : BufTy).Contents (Elt F)),
    nullary main_cst_0 (constant S_ .f32 0x3E4CCCCD#32),
    unary main_cst_0 main_v7 (broadcastInDim S32768 ![] bcast_S_S32768 : (⟨S_, .f32⟩ : BufTy).Contents (Elt F) → (⟨S32768, .f32⟩ : BufTy).Contents (Elt F)),
    binary main_v4 main_v7 main_v8 (cmpf .olt : (⟨S32768, .f32⟩ : BufTy).Contents (Elt F) → (⟨S32768, .f32⟩ : BufTy).Contents (Elt F) → (⟨S32768, .i1⟩ : BufTy).Contents (Elt F)),
    nullary main_cst_1 (constant S_ .f32 0x40A00000#32),
    nullary main_cst_2 (constant S_ .f32 0x40400000#32),
    TRef.unary (TRef.of (T := ⟨S_, .f32⟩) main_cst_1) (TRef.of (T := ⟨S32768, .f32⟩) main_call2_v0) (broadcastInDim S32768 ![] bcast_S_S32768),
    TRef.unary (TRef.of (T := ⟨S_, .f32⟩) main_cst_2) (TRef.of (T := ⟨S32768, .f32⟩) main_call2_v1) (broadcastInDim S32768 ![] bcast_S_S32768),
    TRef.ternary (TRef.of (T := ⟨S32768, .i1⟩) main_v8) (TRef.of (T := ⟨S32768, .f32⟩) main_call2_v0) (TRef.of (T := ⟨S32768, .f32⟩) main_call2_v1) (TRef.of (T := ⟨S32768, .f32⟩) main_v9) select,
    nullary main_cst_3 (constant S_ .f32 0x00000000#32),
    TRef.unary (TRef.of (T := ⟨S_, .f32⟩) main_cst_3) (TRef.of (T := ⟨S32768, .f32⟩) main_call3_v0) (broadcastInDim S32768 ![] bcast_S_S32768),
    TRef.ternary (TRef.of (T := ⟨S32768, .i1⟩) main_v6) (TRef.of (T := ⟨S32768, .f32⟩) main_call3_v0) (TRef.of (T := ⟨S32768, .f32⟩) main_v9) (TRef.of (T := ⟨S32768, .f32⟩) main_v10) select,
    nullary main_cst_4 (constant S_ .f32 0x3F800000#32),
    unary main_cst_4 main_v11 (broadcastInDim S32768 ![] bcast_S_S32768 : (⟨S_, .f32⟩ : BufTy).Contents (Elt F) → (⟨S32768, .f32⟩ : BufTy).Contents (Elt F)),
    binary main_v11 main_v4 main_v12 (subf : (⟨S32768, .f32⟩ : BufTy).Contents (Elt F) → (⟨S32768, .f32⟩ : BufTy).Contents (Elt F) → (⟨S32768, .f32⟩ : BufTy).Contents (Elt F)),
    unary main_v10 main_v13 (id : (⟨S32768, .f32⟩ : BufTy).Contents (Elt F) → (⟨S32768, .f32⟩ : BufTy).Contents (Elt F)),
    binary main_v12 main_v13 main_v14 (Host.powf : (⟨S32768, .f32⟩ : BufTy).Contents (Elt F) → (⟨S32768, .f32⟩ : BufTy).Contents (Elt F) → (⟨S32768, .f32⟩ : BufTy).Contents (Elt F)),
    unary main_v14 main_v15 (Host.negf : (⟨S32768, .f32⟩ : BufTy).Contents (Elt F) → (⟨S32768, .f32⟩ : BufTy).Contents (Elt F)),
    binary main_v15 main_v3 main_v16 (mulf : (⟨S32768, .f32⟩ : BufTy).Contents (Elt F) → (⟨S32768, .f32⟩ : BufTy).Contents (Elt F) → (⟨S32768, .f32⟩ : BufTy).Contents (Elt F)),
    nullary main_cst_5 (constant S_ .f32 0x00000000#32),
    binary main_v16 main_cst_5 main_v17 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)) ]

/-- The line is its three stretches, in order. -/
theorem ops_split : (ops : List (HloOp τ sig (Elt F))) = opsA ++ (opsB ++ opsC) := rfl

variable (V : Valuation τ sig (Elt F))

/-! ### Typed references hold their values unchanged

An operation of an inlined function reads and writes its buffers through the type equation of a typed reference:
a value is carried to the buffer's own type when written and back when read. The two transports are inverse to each
other for every typed reference, and at a literal reference, whose buffer type IS the value's type, each transport
alone is the identity. These are the facts that bring a stretch's composed term to the plain composition of its array
operations, so that it is compared with the stage functions as written and no array operation is ever opened. -/

/-- Written through a typed reference and read back through it, a value is unchanged. -/
theorem ofBuf_toBuf {T : BufTy} (x : TRef sig T) (v : T.Contents (Elt F)) : x.ofBuf (x.toBuf v) = v := by
  obtain ⟨r, rfl, _, _⟩ := x; rfl

/-- At the literal references below the buffer's type is the value's type, so reading or writing through the typed
    reference is the identity. -/
theorem ofBuf_main_arg0 (h1 h2 h3) (v : main_arg0.ty.Contents (Elt F)) :
    (TRef.of (sig := sig) (T := ⟨S32768x4096, .f32⟩) main_arg0 h1 h2 h3).ofBuf v = v := rfl
theorem toBuf_main_v0 (h1 h2 h3) (v : (⟨S32768x4096, .f32⟩ : BufTy).Contents (Elt F)) :
    (TRef.of (sig := sig) (T := ⟨S32768x4096, .f32⟩) main_v0 h1 h2 h3).toBuf v = v := rfl
theorem ofBuf_main_v0 (h1 h2 h3) (v : main_v0.ty.Contents (Elt F)) :
    (TRef.of (sig := sig) (T := ⟨S32768x4096, .f32⟩) main_v0 h1 h2 h3).ofBuf v = v := rfl
theorem ofBuf_main_v1 (h1 h2 h3) (v : main_v1.ty.Contents (Elt F)) :
    (TRef.of (sig := sig) (T := ⟨S32768x1, .i32⟩) main_v1 h1 h2 h3).ofBuf v = v := rfl
theorem toBuf_main_call1_v4 (h1 h2 h3) (v : (⟨S32768x1, .i32⟩ : BufTy).Contents (Elt F)) :
    (TRef.of (sig := sig) (T := ⟨S32768x1, .i32⟩) main_call1_v4 h1 h2 h3).toBuf v = v := rfl
theorem ofBuf_main_call1_v5 (h1 h2 h3) (v : main_call1_v5.ty.Contents (Elt F)) :
    (TRef.of (sig := sig) (T := ⟨S32768x1x1, .i32⟩) main_call1_v5 h1 h2 h3).ofBuf v = v := rfl
theorem toBuf_main_v2 (h1 h2 h3) (v : (⟨S32768x1, .f32⟩ : BufTy).Contents (Elt F)) :
    (TRef.of (sig := sig) (T := ⟨S32768x1, .f32⟩) main_v2 h1 h2 h3).toBuf v = v := rfl

theorem ofBuf_main_cst_1 (h1 h2 h3) (v : main_cst_1.ty.Contents (Elt F)) :
    (TRef.of (sig := sig) (T := ⟨S_, .f32⟩) main_cst_1 h1 h2 h3).ofBuf v = v := rfl
theorem ofBuf_main_cst_2 (h1 h2 h3) (v : main_cst_2.ty.Contents (Elt F)) :
    (TRef.of (sig := sig) (T := ⟨S_, .f32⟩) main_cst_2 h1 h2 h3).ofBuf v = v := rfl
theorem ofBuf_main_cst_3 (h1 h2 h3) (v : main_cst_3.ty.Contents (Elt F)) :
    (TRef.of (sig := sig) (T := ⟨S_, .f32⟩) main_cst_3 h1 h2 h3).ofBuf v = v := rfl
theorem ofBuf_main_v8 (h1 h2 h3) (v : main_v8.ty.Contents (Elt F)) :
    (TRef.of (sig := sig) (T := ⟨S32768, .i1⟩) main_v8 h1 h2 h3).ofBuf v = v := rfl
theorem ofBuf_main_v6 (h1 h2 h3) (v : main_v6.ty.Contents (Elt F)) :
    (TRef.of (sig := sig) (T := ⟨S32768, .i1⟩) main_v6 h1 h2 h3).ofBuf v = v := rfl
theorem toBuf_main_v10 (h1 h2 h3) (v : (⟨S32768, .f32⟩ : BufTy).Contents (Elt F)) :
    (TRef.of (sig := sig) (T := ⟨S32768, .f32⟩) main_v10 h1 h2 h3).toBuf v = v := rfl

/-- After the first stretch the log-softmax array is its stage of the logits; -/
theorem afterA_v0 : after opsA V (Proc.devRef .tc main_v0) = val_main_v0 (F := F) (V (Proc.devRef .tc main_arg0)) := by
  after_results_simp
  simp only [ofBuf_toBuf, ofBuf_main_arg0, toBuf_main_v0]
  simp only [val_main_v0, val_main_call0_v10, val_main_call0_v9, val_main_call0_v8, val_main_call0_v7, val_main_call0_cst_1,
    val_main_call0_v6, val_main_call0_v5, val_main_call0_v4, val_main_call0_v3, val_main_call0_v2, val_main_call0_v1,
    val_main_call0_cst_0, val_main_call0_v0, val_main_call0_cst]
/-- and the two arguments are as they were. -/
theorem afterA_arg0 : after opsA V (Proc.devRef .tc main_arg0) = V (Proc.devRef .tc main_arg0) := by
  after_results_simp <;> rfl
theorem afterA_arg1 : after opsA V (Proc.devRef .tc main_arg1) = V (Proc.devRef .tc main_arg1) := by
  after_results_simp <;> rfl

/-- After the second stretch, from contents whose log-softmax array is the stage of logits `x0` and whose label
    array is `x1`, the picked vector is its stage of `x0` and `x1`; -/
theorem afterB_v3 (x0 : (⟨S32768x4096, .f32⟩ : BufTy).Contents (Elt F)) (x1 : (⟨S32768, .i32⟩ : BufTy).Contents (Elt F))
    (h0 : V (Proc.devRef .tc main_v0) = val_main_v0 (F := F) x0) (h1 : V (Proc.devRef .tc main_arg1) = x1) :
    after opsB V (Proc.devRef .tc main_v3) = val_main_v3 (F := F) x0 x1 := by
  after_results_simp
  simp only [ofBuf_toBuf, ofBuf_main_v0, ofBuf_main_v1, toBuf_main_call1_v4, ofBuf_main_call1_v5, toBuf_main_v2]
  rw [h0, h1]
  simp only [val_main_v3, val_main_v2, val_main_call1_v14, val_main_call1_cst, val_main_call1_v13, val_main_call1_v12, val_main_call1_c_3,
    val_main_call1_v11, val_main_call1_v10, val_main_call1_v9, val_main_call1_v8, val_main_call1_v7, val_main_call1_v6, val_main_call1_c_2,
    val_main_call1_c_1, val_main_call1_v5, val_main_call1_v4, val_main_call1_v3, val_main_call1_v2, val_main_call1_c_0, val_main_call1_v1,
    val_main_call1_v0, val_main_call1_c, val_main_v1]
  rfl
theorem afterB_arg0 : after opsB V (Proc.devRef .tc main_arg0) = V (Proc.devRef .tc main_arg0) := by
  after_results_simp <;> rfl
theorem afterB_arg1 : after opsB V (Proc.devRef .tc main_arg1) = V (Proc.devRef .tc main_arg1) := by
  after_results_simp <;> rfl

/-- After the third stretch, from contents whose picked vector is the stage of `x0` and `x1`, the result is the
    last stage of `x0` and `x1`. -/
theorem afterC_v17 (x0 : (⟨S32768x4096, .f32⟩ : BufTy).Contents (Elt F)) (x1 : (⟨S32768, .i32⟩ : BufTy).Contents (Elt F))
    (h3 : V (Proc.devRef .tc main_v3) = val_main_v3 (F := F) x0 x1) :
    after opsC V (Proc.devRef .tc main_v17) = val_main_v17 (F := F) x0 x1 := by
  after_results_simp
  simp only [ofBuf_toBuf, ofBuf_main_cst_1, ofBuf_main_cst_2, ofBuf_main_cst_3, ofBuf_main_v8, ofBuf_main_v6, toBuf_main_v10]
  rw [h3]
  simp only [val_main_v17, val_main_cst_5, val_main_v16, val_main_v15, val_main_v14, val_main_v13, val_main_v12, val_main_v11, val_main_cst_4,
    val_main_v10, val_main_call3_v0, val_main_cst_3, val_main_v9, val_main_call2_v1, val_main_call2_v0, val_main_cst_2, val_main_cst_1,
    val_main_v8, val_main_v7, val_main_cst_0, val_main_v6, val_main_v5, val_main_cst, val_main_v4]
theorem afterC_arg0 : after opsC V (Proc.devRef .tc main_arg0) = V (Proc.devRef .tc main_arg0) := by
  after_results_simp <;> rfl
theorem afterC_arg1 : after opsC V (Proc.devRef .tc main_arg1) = V (Proc.devRef .tc main_arg1) := by
  after_results_simp <;> rfl

/-- The whole line: the result is the last stage of the arguments, and the arguments are unchanged. -/
theorem after_ops :
    after (ops : List (HloOp τ sig (Elt F))) V (Proc.devRef .tc main_v17)
        = val_main_v17 (F := F) (V (Proc.devRef .tc main_arg0)) (V (Proc.devRef .tc main_arg1))
      ∧ after (ops : List (HloOp τ sig (Elt F))) V (Proc.devRef .tc main_arg0) = V (Proc.devRef .tc main_arg0)
      ∧ after (ops : List (HloOp τ sig (Elt F))) V (Proc.devRef .tc main_arg1) = V (Proc.devRef .tc main_arg1) := by
  rw [ops_split, StableHlo.after_append, StableHlo.after_append]
  refine ⟨?_, ?_, ?_⟩
  · exact afterC_v17 _ _ _ (afterB_v3 _ _ _ (afterA_v0 V) (afterA_arg1 V))
  · rw [afterC_arg0, afterB_arg0, afterA_arg0]
  · rw [afterC_arg1, afterB_arg1, afterA_arg1]

/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = val_main_v17 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (after_ops _).1,
      (h c main_arg0).trans (after_ops _).2.1, (h c main_arg1).trans (after_ops _).2.2⟩)
    (run_seq scopedRefs_eq scopedSems_eq defs main (fun _ => ops) main_eq (fun _ => ops_sub) m ρ)

end Cert.ReferenceIdeal.RefRun

end
-- ==== Proof.LibGatherRows.lean ====
/-
  A row-wise gather read at an index.

  The operand is a table of `N` rows and `C` columns; the start indices are one word per row, laid out as an
  `N × 1 × 1` array; the result is an `N × 1` column. Row `b` of the result reads row `b` of the table (the row axis
  is a batching axis on both sides) at the column its word names: the word read as a SIGNED integer and clamped into
  `[0, C − 1]`. This is what `take_along_axis(table, idx[:, None], axis=1)` lowers to.
  When the word is already a column's position (below `C`, with `C` at most half the word range so that the signed
  reading is the unsigned one) the entry read is the one at the word itself.
  Nothing here depends on the sizes.
-/
import Idealize.ShloMosaic.PureOps.Ideal
import Idealize.ShloMosaic.PureOps.ShapeOps
import Idealize.ShloMosaic.PureOps.Contract
import Idealize.ShloMosaic.Lib.ValueIdx

noncomputable section

namespace Cert.LibGatherRows

open Idealize.ShloMosaic Idealize.ShloMosaic.ValueIdx

variable {α : Type} {N C w : Nat}

/-- The row-wise gather at `(b, u)`, whatever the word: row `b` of the table at the column the word of row `b`
    names, read signed and clamped. -/
theorem gather_rows_clamp (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (b : Fin N) (u : Fin 1) (hC : 0 < C) :
    Host.gather d x idx (ix2 b u)
      = x (ix2 b ⟨min (idx (ix3 b u (0 : Fin 1))).toInt.toNat (C - 1), by omega⟩) := by
  have hsl : d.sliceSizes 1 = 1 := d.slice_collapsed 1 (by rw [hcoll]; exact List.mem_singleton.mpr rfl)
  unfold Host.gather
  refine congrArg x ?_
  cases d with
  | mk od cd ob sb sm iv ss wf =>
    obtain rfl : od = [] := hoff
    obtain rfl : cd = [1] := hcoll
    obtain rfl : ob = [0] := hob
    obtain rfl : sb = [0] := hsb
    obtain rfl : sm = [1] := hsim
    obtain rfl : iv = 2 := hivd
    replace hsl : ss 1 = 1 := hsl
    funext a
    match a with
    | ⟨0, _⟩ =>
      apply Fin.ext
      show GatherDims.start _ (ix2 b u) idx 0 + GatherDims.batchCoord _ (ix2 b u) 0 + GatherDims.offCoord _ (ix2 b u) 0
        = b.val
      rw [GatherDims.offCoord_eq_zero _ _ _ (by decide : (0 : Fin 2) ∉ (List.finRange 2).filter (· ∉ [1] ++ [0]))]
      unfold GatherDims.start
      rw [dif_neg (by decide : (0 : Fin 2) ∉ [1]), Nat.zero_add, Nat.add_zero]
      unfold GatherDims.batchCoord
      rw [dif_pos (List.mem_singleton.mpr rfl)]
      rfl
    | ⟨1, _⟩ =>
      apply Fin.ext
      show GatherDims.start _ (ix2 b u) idx 1 + GatherDims.batchCoord _ (ix2 b u) 1 + GatherDims.offCoord _ (ix2 b u) 1
        = min (idx (ix3 b u (0 : Fin 1))).toInt.toNat (C - 1)
      rw [GatherDims.batchCoord_eq_zero _ _ _ (by decide : (1 : Fin 2) ∉ [0]),
        GatherDims.offCoord_eq_zero _ _ _ (by decide : (1 : Fin 2) ∉ (List.finRange 2).filter (· ∉ [1] ++ [0]))]
      simp only [Nat.add_zero]
      unfold GatherDims.start
      rw [dif_pos (List.mem_singleton.mpr rfl)]
      show min (idx _).toInt.toNat (C - ss 1) = _
      rw [hsl]
      refine congrArg (fun k => min (idx k).toInt.toNat (C - 1)) ?_
      funext e
      match e with
      | ⟨0, _⟩ => exact Fin.ext rfl
      | ⟨1, _⟩ => exact Fin.ext rfl
      | ⟨2, _⟩ => exact Fin.ext rfl

/-- The row-wise gather at `(b, u)` when the word of row `b` is a column's position: the table at `(b, word)`. -/
theorem gather_rows (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (b : Fin N) (u : Fin 1)
    (hC : 2 * C ≤ 2 ^ w) (h : (idx (ix3 b u (0 : Fin 1))).toNat < C) :
    Host.gather d x idx (ix2 b u) = x (ix2 b ⟨(idx (ix3 b u (0 : Fin 1))).toNat, h⟩) := by
  have hC0 : 0 < C := by omega
  rw [gather_rows_clamp d hoff hcoll hob hsb hsim hivd x idx b u hC0]
  refine congrArg x (congrArg (fun r => ix2 b r) (Fin.ext ?_))
  show min (idx (ix3 b u (0 : Fin 1))).toInt.toNat (C - 1) = (idx (ix3 b u (0 : Fin 1))).toNat
  rw [BitVec.toInt_eq_toNat_of_lt (by omega), Int.toNat_natCast]
  omega

end Cert.LibGatherRows

end
-- ==== Proof.RefValue.lean ====
/-
  The plain program's result, read stage by stage, is the specification's total loss.

  Row by row. The largest entry of a row is the fold of `max` from `−∞` over the row, taken once more against `−∞`;
  each entry less that is the shifted logit, the sum of the shifted exponentials is added to a zero, and the
  log-softmax at `(n, k)` is the shifted logit less the logarithm of that sum. A label word below 4096 is not
  negative as a signed integer, so the index word built from it is the label itself; it lies in `[0, 4095]`, so the
  in-range test, folded by `and` from `1` over the one coordinate of a size-one axis, is `1`, and the row-wise gather
  reads the log-softmax of row `n` at the column the label names. The remaining stages (the probability, the two
  comparisons, the exponent chosen among the words of `0`, `5`, `3`, the power of `1 − pt`, its negation, the product
  with the log-probability) act entry by entry and are the plain arrangement `refLoss` term for term.

  The total. The sum over the one-axis indices started from a zero is the sum over the 32768 rows; with real logits
  each row's plain arrangement is the focal loss of its class's log-probability.
-/
import proofs.«402988_j6030134084185_2_alg».proof.Proof.RefRead
import proofs.«402988_j6030134084185_2_alg».proof.Proof.Spec
import proofs.«402988_j6030134084185_2_alg».proof.Proof.RefMath
import proofs.«402988_j6030134084185_2_alg».proof.Proof.LibGatherRows
import Idealize.ShloMosaic.PureOps.Ideal.Laws
import Idealize.ShloMosaic.PureOps.Reduce
import Idealize.ShloMosaic.Lib.ValueIdx
import Idealize.ShloMosaic.Lib.Pipeline.Value
import Idealize.ShloMosaic.Lib.ReduceAll

noncomputable section

namespace Cert.Focal

open Idealize.ShloMosaic Idealize.ShloMosaic.ValueIdx Cert.ReferenceIdeal Cert.ReferenceIdeal.Gen Cert.ReferenceIdeal.ReadP

/-- The largest entry of row `n` as the plain program takes it: the fold of `max` from the word of `−∞` over the row. -/
private theorem ref_rowmax (X : FVec Ideal S32768x4096 .f32) (n : Fin 32768) :
    val_main_call0_v0 (F := Ideal) X (ix1 n)
      = (Finset.univ : Finset (Fin 4096)).fold max (Ideal.ofBits .f32 wNegInf) (rowOf X n) := by
  unfold val_main_call0_v0
  have h : S32768x4096.Reduces [1] S32768 := by decide
  rw [Host.reduce_eq_fold_single FloatOps.maximumf X _ reducesTo_S32768x4096_S32768_d1 h h_S_ (ix1 n)]
  have hl : (X ∘ h.lift (ix1 n)) = rowOf X n := by
    funext c
    refine congrArg X (funext fun a => Fin.ext ?_)
    match a with
    | ⟨0, _⟩ => rfl
    | ⟨1, _⟩ => rfl
  rw [hl]
  rfl

/-- An entry of row `n` less the row's largest entry (taken once more against `−∞`). -/
private theorem ref_shift (X : FVec Ideal S32768x4096 .f32) (n : Fin 32768) (c : Fin 4096) :
    val_main_call0_v5 (F := Ideal) X (ix2 n c)
      = X (ix2 n c) - max (Ideal.ofBits .f32 wNegInf)
          ((Finset.univ : Finset (Fin 4096)).fold max (Ideal.ofBits .f32 wNegInf) (rowOf X n)) := by
  rw [val_main_call0_v5_apply, val_main_call0_v4_apply, val_main_call0_v3_apply, val_main_call0_v2_apply,
    val_main_call0_v1_apply, val_main_call0_cst_0_apply]
  have hi : idx_main_call0_v3 (idx_main_call0_v4 (ix2 n c)) = ix1 n := by
    funext a
    match a with
    | ⟨0, _⟩ => rfl
  rw [hi, ref_rowmax]
  rfl

/-- The logarithm of the row's sum of shifted exponentials, the sum added to a zero. -/
private theorem ref_logsum (X : FVec Ideal S32768x4096 .f32) (n : Fin 32768) (u : Fin 1) :
    val_main_call0_v9 (F := Ideal) X (ix2 n u)
      = Ideal.log (Ideal.ofBits .f32 wZero + ∑ c : Fin 4096, Ideal.exp (X (ix2 n c) - max (Ideal.ofBits .f32 wNegInf)
          ((Finset.univ : Finset (Fin 4096)).fold max (Ideal.ofBits .f32 wNegInf) (rowOf X n)))) := by
  rw [val_main_call0_v9_apply, val_main_call0_v8_apply, val_main_call0_v7_apply, val_main_call0_cst_1_apply]
  have hi : ∀ c : Fin 4096, idx_main_call0_v7 (idx_main_call0_v8 (ix2 n u)) c = ix2 n c := by
    intro c
    funext a
    match a with
    | ⟨0, _⟩ => rfl
    | ⟨1, _⟩ => rfl
  simp only [hi, val_main_call0_v6_apply, ref_shift]
  rfl

/-- The log-softmax of the logits at `(n, k)`. -/
private theorem ref_logsoftmax (X : FVec Ideal S32768x4096 .f32) (n : Fin 32768) (k : Fin 4096) :
    val_main_v0 (F := Ideal) X (ix2 n k)
      = (X (ix2 n k) - max (Ideal.ofBits .f32 wNegInf)
          ((Finset.univ : Finset (Fin 4096)).fold max (Ideal.ofBits .f32 wNegInf) (rowOf X n)))
        - Ideal.log (Ideal.ofBits .f32 wZero + ∑ c : Fin 4096, Ideal.exp (X (ix2 n c) - max (Ideal.ofBits .f32 wNegInf)
          ((Finset.univ : Finset (Fin 4096)).fold max (Ideal.ofBits .f32 wNegInf) (rowOf X n)))) := by
  rw [val_main_v0_apply, val_main_call0_v10_apply, ref_shift]
  have hi : idx_main_call0_v10 (ix2 n k) = ix2 n (0 : Fin 1) := by
    funext a
    match a with
    | ⟨0, _⟩ => rfl
    | ⟨1, _⟩ => rfl
  rw [hi, ref_logsum]
  rfl

/-- A label word below 4096 read as a signed integer is its unsigned value. -/
private theorem ref_toInt (w : BitVec 32) (hw : w.toNat < 4096) : w.toInt = (w.toNat : Int) :=
  BitVec.toInt_eq_toNat_of_lt (by omega)

/-- The index word the gather reads for row `n`: a label below 4096 is not negative, so it stays itself. -/
private theorem ref_label (T : IVec S32768 32) (n : Fin 32768) (u v : Fin 1) (hT : (T (ix1 n)).toNat < 4096) :
    val_main_call1_v5 (F := Ideal) T (ix3 n u v) = T (ix1 n) := by
  rw [val_main_call1_v5_apply, val_main_call1_v4_apply, val_main_call1_v1_apply, val_main_v1_apply,
    val_main_call1_v0_apply, val_main_call1_c_apply]
  have hi : idx_main_v1 (idx_main_call1_v5 (ix3 n u v)) = ix1 n := by
    funext a
    match a with
    | ⟨0, _⟩ =>
      refine Fin.ext ?_
      show ((n.val * 1 + u.val) * 1 + v.val) / 1 = n.val
      have := u.isLt; have := v.isLt; omega
  rw [hi]
  have hc : IntOp.cmpi .slt (T (ix1 n)) 0#32 = 0#1 := by
    refine eq_zero_of_ne_one fun h => ?_
    rw [IntOp.cmpi_slt, ref_toInt _ hT] at h
    have h0 : (0#32 : BitVec 32).toInt = 0 := by decide
    omega
  rw [hc, select_zero]

/-- A fold over the one element of `Fin 1` is the operation applied once. -/
private theorem ref_fold_one (b : BitVec 1) (g : Fin 1 → BitVec 1) :
    (Finset.univ : Finset (Fin 1)).fold IntOp.andi b g = IntOp.andi (g 0) b := by
  rw [Finset.univ_unique, Finset.fold_singleton]; rfl

/-- The in-range test of row `n`'s index word, `0 ≤ w ≤ 4095` folded by `and` from `1` over the one coordinate of the
    last axis, is `1` for a label below 4096. -/
private theorem ref_guard (T : IVec S32768 32) (n : Fin 32768) (u : Fin 1) (hT : (T (ix1 n)).toNat < 4096) :
    val_main_call1_v12 (F := Ideal) T (ix2 n u) = 1#1 := by
  unfold val_main_call1_v12
  have h : S32768x1x1.Reduces [2] S32768x1 := by decide
  rw [Host.reduce_eq_fold_single IntOp.andi _ _ reducesTo_S32768x1x1_S32768x1_d2 h h_S_ (ix2 n u)]
  refine (ref_fold_one _ _).trans ?_
  have hl : h.lift (ix2 n u) (0 : Fin 1) = ix3 n u (0 : Fin 1) := by
    funext a
    match a with
    | ⟨0, _⟩ => exact Fin.ext rfl
    | ⟨1, _⟩ => exact Fin.ext rfl
    | ⟨2, _⟩ => exact Fin.ext rfl
  show IntOp.andi (val_main_call1_v11 (F := Ideal) T (h.lift (ix2 n u) (0 : Fin 1))) 1#1 = 1#1
  rw [hl, val_main_call1_v11_apply, val_main_call1_v7_apply, val_main_call1_v10_apply, ref_label T n u 0 hT,
    val_main_call1_v6_apply, val_main_call1_c_2_apply, val_main_call1_v9_apply, val_main_call1_v8_apply,
    val_main_call1_c_1_apply]
  have h0 : (0#32 : BitVec 32).toInt = 0 := by decide
  have h1 : (4095#32 : BitVec 32).toInt = 4095 := by decide
  refine IntOp.andi_eq_one.mpr ⟨IntOp.andi_eq_one.mpr ⟨?_, ?_⟩, rfl⟩
  · rw [IntOp.cmpi_sge, ref_toInt _ hT, h0]; omega
  · rw [IntOp.cmpi_sle, ref_toInt _ hT, h1]; omega

/-- Row `n`'s log-probability as the plain program reads it: the guard passes, the gather reads the log-softmax at
    the column the label names. -/
private theorem ref_lp (X : FVec Ideal S32768x4096 .f32) (T : IVec S32768 32) (n : Fin 32768)
    (hT : (T (ix1 n)).toNat < 4096) :
    val_main_v3 (F := Ideal) X T (ix1 n)
      = (X (ix2 n (tgt (T (ix1 n)))) - max (Ideal.ofBits .f32 wNegInf)
          ((Finset.univ : Finset (Fin 4096)).fold max (Ideal.ofBits .f32 wNegInf) (rowOf X n)))
        - Ideal.log (Ideal.ofBits .f32 wZero + ∑ c : Fin 4096, Ideal.exp (X (ix2 n c) - max (Ideal.ofBits .f32 wNegInf)
          ((Finset.univ : Finset (Fin 4096)).fold max (Ideal.ofBits .f32 wNegInf) (rowOf X n)))) := by
  rw [val_main_v3_apply, val_main_v2_apply]
  have hi : idx_main_v3 (ix1 n) = ix2 n (0 : Fin 1) := by
    funext a
    match a with
    | ⟨0, _⟩ => exact Fin.ext (Nat.div_one _)
    | ⟨1, _⟩ => rfl
  rw [hi, ref_guard T n 0 hT, select_one]
  unfold val_main_call1_v13
  have hw : (val_main_call1_v5 (F := Ideal) T (ix3 n (0 : Fin 1) (0 : Fin 1))).toNat < 4096 := by
    rw [ref_label T n 0 0 hT]; exact hT
  refine (Cert.LibGatherRows.gather_rows gather_S32768x4096_S32768x1x1_S32768x1_n_1_0_0_1_2_11 rfl rfl rfl rfl rfl rfl
    (val_main_v0 (F := Ideal) X) (val_main_call1_v5 (F := Ideal) T) n (0 : Fin 1) (by norm_num) hw).trans ?_
  have hk : (⟨(val_main_call1_v5 (F := Ideal) T (ix3 n (0 : Fin 1) (0 : Fin 1))).toNat, hw⟩ : Fin 4096) = tgt (T (ix1 n)) := by
    refine Fin.ext ?_
    show (val_main_call1_v5 (F := Ideal) T (ix3 n (0 : Fin 1) (0 : Fin 1))).toNat = (T (ix1 n)).toNat % 4096
    rw [ref_label T n 0 0 hT, Nat.mod_eq_of_lt hT]
  rw [hk, ref_logsoftmax]

/-- Row `n`'s loss as the plain program computes it is the plain arrangement `refLoss` of the row at the class its label
    names: every remaining stage is pointwise. -/
theorem ref_row (X : FVec Ideal S32768x4096 .f32) (T : IVec S32768 32) (n : Fin 32768) (hT : (T (ix1 n)).toNat < 4096) :
    val_main_v16 (F := Ideal) X T (ix1 n) = refLoss (rowOf X n) (tgt (T (ix1 n))) := by
  rw [val_main_v16_apply, val_main_v15_apply, val_main_v14_apply, val_main_v12_apply, val_main_v13_apply,
    val_main_v10_apply, val_main_v9_apply, val_main_v6_apply, val_main_v8_apply, val_main_v4_apply,
    val_main_v11_apply, val_main_cst_4_apply, val_main_v5_apply, val_main_cst_apply, val_main_v7_apply,
    val_main_cst_0_apply, val_main_call2_v0_apply, val_main_cst_1_apply, val_main_call2_v1_apply,
    val_main_cst_2_apply, val_main_call3_v0_apply, val_main_cst_3_apply, ref_lp X T n hT]
  rfl

/-- The plain program's result is the specification's total: the zero it starts from adds nothing, the sum over the
    one-axis indices is the sum over the rows, and with real logits each row's plain arrangement is its focal loss. -/
theorem ref_total (X : FVec Ideal S32768x4096 .f32) (T : IVec S32768 32) (hX : ∀ i, ∃ r : ℝ, X i = (r : EReal))
    (hT : ∀ j, (T j).toNat < 4096) :
    val_main_v17 (F := Ideal) X T = fun _ => total X T := by
  funext i
  rw [val_main_v17_apply, val_main_cst_5_apply]
  show Ideal.ofBits .f32 wZero + _ = _
  rw [ofBits_wZero, zero_add]
  unfold total lossRow
  let e : S32768.Idx ≃ Fin 32768 := ⟨fun j => j 0, ix1, fun j => (eq_ix1 j).symm, fun _ => rfl⟩
  refine Fintype.sum_equiv e _ _ fun j => ?_
  obtain ⟨n, rfl⟩ : ∃ n : Fin 32768, j = ix1 n := ⟨j 0, eq_ix1 j⟩
  show val_main_v16 (F := Ideal) X T (ix1 n) = focal (logp (rowOf X n) (tgt (T (ix1 n))))
  rw [ref_row X T n (hT _), refLoss_eq _ _ fun c => hX (ix2 n c)]

end Cert.Focal

end
-- ==== Proof.lean ====
/-
  The certificate of an adaptive-exponent focal loss: the tiled program and the plain program compute, from logits
  `x : 32768 × 4096` and labels `t : 32768`, the same extended real — the sum over the rows `n` of
    `−(g(pₙ) · ℓₙ)`,   `ℓₙ = (x[n, tₙ] − Mₙ) − log ∑_c exp (x[n, c] − Mₙ)`,   `pₙ = exp ℓₙ`,
  with `Mₙ` the row's largest entry and `g(p) = 1`, `(1 − p)⁵` or `(1 − p)³` as `p ≥ 1/2`, `p < 0.2` or neither
  (Proof/Spec.lean).

  Under the precondition every logit is a real number and every label is a class, `0 ≤ tₙ < 4096` (Proof/PreDecode.lean).
  The tiled program (Proof/KerValue.lean) picks `x[n, tₙ] − Mₙ` as the sum over the row of the shifted entries at the
  columns equal to the label — one term, the labels being classes —, writes the powers as products, and spreads each
  block of 512 rows' losses over the 1024 cells of an output tile in shares of `2⁻¹⁰` that the closing sum adds back
  (Proof/Payload.lean, Proof/KerMath.lean, Proof/TileSum.lean). The plain program (Proof/RefRun.lean, Proof/RefValue.lean)
  gathers the label's entry from the row-wise log-softmax, guarded by a range test that the labels pass, and raises
  `1 − pₙ` to a real exponent `0`, `5` or `3`, which on a real base is the product form (Proof/RefMath.lean): that is
  where the logits being real is used.

  The three frames are the programs' runs with the results dropped; the idealization rewrote nothing.
-/
import proofs.«402988_j6030134084185_2_alg».proof.Defs
import proofs.«402988_j6030134084185_2_alg».proof.Proof.Gen.Kernel
import proofs.«402988_j6030134084185_2_alg».proof.Proof.Gen.Kernel.Skeleton
import proofs.«402988_j6030134084185_2_alg».proof.Proof.Gen.Kernel.Launch
import proofs.«402988_j6030134084185_2_alg».proof.Proof.Gen.Kernel.Points
import proofs.«402988_j6030134084185_2_alg».proof.Proof.Gen.Kernel.Frame
import proofs.«402988_j6030134084185_2_alg».proof.Proof.Gen.KernelIdeal
import proofs.«402988_j6030134084185_2_alg».proof.Proof.Gen.KernelIdeal.Skeleton
import proofs.«402988_j6030134084185_2_alg».proof.Proof.Gen.KernelIdeal.Launch
import proofs.«402988_j6030134084185_2_alg».proof.Proof.Gen.KernelIdeal.Points
import proofs.«402988_j6030134084185_2_alg».proof.Proof.Gen.KernelIdeal.Frame
import proofs.«402988_j6030134084185_2_alg».proof.Proof.Gen.ReferenceIdeal
import proofs.«402988_j6030134084185_2_alg».proof.Proof.Gen.Pre_finite_inputs
import proofs.«402988_j6030134084185_2_alg».proof.Proof.PreDecode
import proofs.«402988_j6030134084185_2_alg».proof.Proof.KerValue
import proofs.«402988_j6030134084185_2_alg».proof.Proof.RefRun
import proofs.«402988_j6030134084185_2_alg».proof.Proof.RefValue
import Idealize.ShloMosaic.Adequacy
import Idealize.ShloMosaic.Init

noncomputable section

namespace Cert.Proof

open Idealize.ShloMosaic Idealize.SL.Sem

/-- The word-level tiled program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The plain program runs and keeps its arguments: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on logits that are all real and labels that are all classes, both programs end with the
    total loss of those arguments in their result. -/
theorem algebraic : Cert.algebraic_KernelIdeal_ReferenceIdeal := by
  intro m ρ m' ρ' hpre hagree
  have hdec := fun c => Cert.Focal.pre_decode _ _ (hpre c)
  refine ⟨fun c => fun _ => Cert.Focal.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KerValue.run_value m ρ (fun c => (hdec c).2), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.Focal.ref_total _ _ (hdec c).1 (hdec c).2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
